-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S4x64x64 : Shape := ⟨3, ![4, 64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S4x64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg5
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1000000 32) (main_arg2 : FVec F S1000000 .f32) (main_arg3 : FVec F S4x64x64 .f32) (main_arg4 : FVec F S64 .f32) (main_arg5 : FVec F S4x64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S4x64x64 : Shape := ⟨3, ![4, 64, 64]⟩
abbrev S64 : Shape := ⟨1, ![64]⟩
abbrev S1x1000000 : Shape := ⟨2, ![1, 1000000]⟩
abbrev S1000000x1 : Shape := ⟨2, ![1000000, 1]⟩
abbrev S_ : Shape := ⟨0, ![]⟩
abbrev S1000000x64 : Shape := ⟨2, ![1000000, 64]⟩
abbrev S102400x64 : Shape := ⟨2, ![102400, 64]⟩
abbrev S1x64 : Shape := ⟨2, ![1, 64]⟩
abbrev S4096x64 : Shape := ⟨2, ![4096, 64]⟩
abbrev S1x64x64 : Shape := ⟨3, ![1, 64, 64]⟩
abbrev S64x64 : Shape := ⟨2, ![64, 64]⟩

abbrev nBuf : Space → Nat
  | .hbm => 137
  | .vmem => 24
  | .smem => 0
  | _ => 0

abbrev hbmTy0_0 (i : Nat) : BufTy := match i % 128 with
  | 0 => ⟨S100000x64, .f32⟩
  | 1 => ⟨S2x1000000, .i32⟩
  | 2 => ⟨S1000000, .f32⟩
  | 3 => ⟨S4x64x64, .f32⟩
  | 4 => ⟨S64, .f32⟩
  | 5 => ⟨S4x64x64, .f32⟩
  | 6 => ⟨S64, .f32⟩
  | 7 => ⟨S1x1000000, .i32⟩
  | 8 => ⟨S1000000, .i32⟩
  | 9 => ⟨S1x1000000, .i32⟩
  | 10 => ⟨S1000000, .i32⟩
  | 11 => ⟨S1000000x1, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1000000x64, .f32⟩
  | 22 => ⟨S1000000x64, .f32⟩
  | 23 => ⟨S_, .f32⟩
  | 24 => ⟨S100000x64, .f32⟩
  | 25 => ⟨S1000000x1, .i32⟩
  | 26 => ⟨S100000x64, .f32⟩
  | 27 => ⟨S1000000x1, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x64, .f32⟩
  | 37 => ⟨S1000000x64, .f32⟩
  | 38 => ⟨S1000000x64, .f32⟩
  | 39 => ⟨S_, .f32⟩
  | 40 => ⟨S100000x64, .f32⟩
  | 41 => ⟨S1000000x1, .i32⟩
  | 42 => ⟨S100000x64, .f32⟩
  | 43 => ⟨S1000000x1, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x64, .f32⟩
  | 53 => ⟨S1000000x64, .f32⟩
  | 54 => ⟨S1000000x64, .f32⟩
  | 55 => ⟨S_, .f32⟩
  | 56 => ⟨S100000x64, .f32⟩
  | 57 => ⟨S1000000x1, .i32⟩
  | 58 => ⟨S100000x64, .f32⟩
  | 59 => ⟨S_, .i32⟩
  | 60 => ⟨S_, .f32⟩
  | 61 => ⟨S102400x64, .f32⟩
  | 62 => ⟨S_, .i32⟩
  | 63 => ⟨S_, .f32⟩
  | 64 => ⟨S102400x64, .f32⟩
  | 65 => ⟨S_, .i32⟩
  | 66 => ⟨S_, .f32⟩
  | 67 => ⟨S102400x64, .f32⟩
  | 68 => ⟨S_, .i32⟩
  | 69 => ⟨S_, .f32⟩
  | 70 => ⟨S102400x64, .f32⟩
  | 71 => ⟨S1x64, .f32⟩
  | 72 => ⟨S102400x64, .f32⟩
  | 73 => ⟨S100000x64, .f32⟩
  | 74 => ⟨S1000000x1, .f32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i32⟩
  | 81 => ⟨S1000000, .i32⟩
  | 82 => ⟨S1000000x1, .i32⟩
  | 83 => ⟨S1000000x64, .f32⟩
  | 84 => ⟨S1000000x64, .f32⟩
  | 85 => ⟨S1000000x64, .f32⟩
  | 86 => ⟨S_, .f32⟩
  | 87 => ⟨S100000x64, .f32⟩
  | 88 => ⟨S1000000x1, .i32⟩
  | 89 => ⟨S100000x64, .f32⟩
  | 90 => ⟨S1000000x1, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x64, .f32⟩
  | 101 => ⟨S1000000x64, .f32⟩
  | 102 => ⟨S_, .f32⟩
  | 103 => ⟨S100000x64, .f32⟩
  | 104 => ⟨S1000000x1, .i32⟩
  | 105 => ⟨S100000x64, .f32⟩
  | 106 => ⟨S1000000x1, .f32⟩
  | 107 => ⟨S_, .i32⟩
  | 108 => ⟨S1000000, .i32⟩
  | 109 => ⟨S1000000, .i1⟩
  | 110 => ⟨S_, .i32⟩
  | 111 => ⟨S1000000, .i32⟩
  | 112 => ⟨S1000000, .i32⟩
  | 113 => ⟨S1000000, .i32⟩
  | 114 => ⟨S1000000x1, .i32⟩
  | 115 => ⟨S1000000x64, .f32⟩
  | 116 => ⟨S1000000x64, .f32⟩
  | 117 => ⟨S1000000x64, .f32⟩
  | 118 => ⟨S_, .f32⟩
  | 119 => ⟨S100000x64, .f32⟩
  | 120 => ⟨S1000000x1, .i32⟩
  | 121 => ⟨S100000x64, .f32⟩
  | 122 => ⟨S_, .i32⟩
  | 123 => ⟨S_, .f32⟩
  | 124 => ⟨S102400x64, .f32⟩
  | 125 => ⟨S_, .i32⟩
  | 126 => ⟨S_, .f32⟩
  | 127 => ⟨S102400x64, .f32⟩
  | _ => ⟨S100000x64, .f32⟩

abbrev hbmTy0_1 (i : Nat) : BufTy := match i % 128 with
  | 0 => ⟨S_, .i32⟩
  | 1 => ⟨S_, .f32⟩
  | 2 => ⟨S102400x64, .f32⟩
  | 3 => ⟨S_, .i32⟩
  | 4 => ⟨S_, .f32⟩
  | 5 => ⟨S102400x64, .f32⟩
  | 6 => ⟨S1x64, .f32⟩
  | 7 => ⟨S102400x64, .f32⟩
  | 8 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4x64x64, .f32⟩
  | .local _ .vmem, ⟨9, _⟩ => ⟨S1x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | .local _ .vmem, ⟨18, _⟩ => ⟨S4096x64, .f32⟩
  | .local _ .vmem, ⟨19, _⟩ => ⟨S4096x64, .f32⟩
  | .local _ .vmem, ⟨20, _⟩ => ⟨S4x64x64, .f32⟩
  | .local _ .vmem, ⟨21, _⟩ => ⟨S1x64, .f32⟩
  | .local _ .vmem, ⟨22, _⟩ => ⟨S4096x64, .f32⟩
  | .local _ .vmem, ⟨23, _⟩ => ⟨S4096x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_call0_v0 : Ref sig .tc := ⟨.hbm, 60, rfl⟩
abbrev main_v43 : Ref sig .tc := ⟨.hbm, 61, rfl⟩
abbrev main_c_8 : Ref sig .tc := ⟨.hbm, 62, rfl⟩
abbrev main_call1_v0 : Ref sig .tc := ⟨.hbm, 63, rfl⟩
abbrev main_v44 : Ref sig .tc := ⟨.hbm, 64, rfl⟩
abbrev main_c_9 : Ref sig .tc := ⟨.hbm, 65, rfl⟩
abbrev main_call2_v0 : Ref sig .tc := ⟨.hbm, 66, rfl⟩
abbrev main_v45 : Ref sig .tc := ⟨.hbm, 67, rfl⟩
abbrev main_c_10 : Ref sig .tc := ⟨.hbm, 68, rfl⟩
abbrev main_call3_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_19 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_20 : Ref sig .tc := ⟨.hbm, 122, rfl⟩
abbrev main_call4_v0 : Ref sig .tc := ⟨.hbm, 123, rfl⟩
abbrev main_v89 : Ref sig .tc := ⟨.hbm, 124, rfl⟩
abbrev main_c_21 : Ref sig .tc := ⟨.hbm, 125, rfl⟩
abbrev main_call5_v0 : Ref sig .tc := ⟨.hbm, 126, rfl⟩
abbrev main_v90 : Ref sig .tc := ⟨.hbm, 127, rfl⟩
abbrev main_c_22 : Ref sig .tc := ⟨.hbm, 128, rfl⟩
abbrev main_call6_v0 : Ref sig .tc := ⟨.hbm, 129, rfl⟩
abbrev main_v91 : Ref sig .tc := ⟨.hbm, 130, rfl⟩
abbrev main_c_23 : Ref sig .tc := ⟨.hbm, 131, rfl⟩
abbrev main_call7_v0 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  h_S_ : 0 < S_.numel
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4x64x64_S4x64x64_0_0_0 : ∀ a, (![0, 0, 0] : Fin 3 → Nat) a + S4x64x64.size a ≤ S4x64x64.size a
  h_S4x64x64 : 0 < S4x64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  slices_S4x64x64_o0_0_0_S1x64x64 : S4x64x64.Slices ![0, 0, 0] S1x64x64
  shapeCasts_S1x64x64_S64x64 : S1x64x64.ShapeCasts S64x64
  slices_S4x64x64_o1_0_0_S1x64x64 : S4x64x64.Slices ![1, 0, 0] S1x64x64
  slices_S4x64x64_o2_0_0_S1x64x64 : S4x64x64.Slices ![2, 0, 0] S1x64x64
  slices_S4x64x64_o3_0_0_S1x64x64 : S4x64x64.Slices ![3, 0, 0] S1x64x64
  broadcasts_S1x64_S4096x64 : S1x64.Broadcasts S4096x64
  slices_S102400x64_S100000x64_0_0 : S102400x64.Slices ![0, 0] S100000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S102400x64.size a
  hwx0_0 : ∀ i : grid0.Coords, EltTy.bits .f32 = 32 ∨ (Rect.block (s := S102400x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S102400x64.size a
  hwx0_1 : ∀ i : grid0.Coords, EltTy.bits .f32 = 32 ∨ (Rect.block (s := S102400x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .f32 = 32 ∨ (Rect.block (s := S102400x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S102400x64.size a
  hwx0_3 : ∀ i : grid0.Coords, EltTy.bits .f32 = 32 ∨ (Rect.block (s := S102400x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64x64.size a ≤ S4x64x64.size a
  hwx0_4 : ∀ i : grid0.Coords, EltTy.bits .f32 = 32 ∨ (Rect.block (s := S4x64x64) S4x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S102400x64.size a
  hwx0_6 : ∀ i : grid0.Coords, EltTy.bits .f32 = 32 ∨ (Rect.block (s := S102400x64) S4096x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S102400x64.size a
  hwx1_1 : ∀ i : grid1.Coords, EltTy.bits .f32 = 32 ∨ (Rect.block (s := S102400x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S102400x64.size a
  hwx1_2 : ∀ i : grid1.Coords, EltTy.bits .f32 = 32 ∨ (Rect.block (s := S102400x64) S4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S102400x64.size a
  hwx1_3 : ∀ i : grid1.Coords, EltTy.bits .f32 = 32 ∨ (Rect.block (s := S102400x64) S4096x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x64x64.size a ≤ S4x64x64.size a
  hwx1_4 : ∀ i : grid1.Coords, EltTy.bits .f32 = 32 ∨ (Rect.block (s := S4x64x64) S4x64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x64.size a ≤ S102400x64.size a
  hwx1_6 : ∀ i : grid1.Coords, EltTy.bits .f32 = 32 ∨ (Rect.block (s := S102400x64) S4096x64.size (cc1_transform_6 i) (hinb1_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v43) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S4096x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v89) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v90) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S4096x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S4x64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v93) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v94) S4096x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S4x64x64 : Shape := ⟨3, ![4, 64, 64]⟩
abbrev S64 : Shape := ⟨1, ![64]⟩
abbrev S1x1000000 : Shape := ⟨2, ![1, 1000000]⟩
abbrev S1x64x64 : Shape := ⟨3, ![1, 64, 64]⟩
abbrev S64x64 : Shape := ⟨2, ![64, 64]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩

abbrev nBuf : Space → Nat
  | .hbm => 159
  | .vmem => 0
  | .smem => 0
  | _ => 0

abbrev hbmTy0_0 (i : Nat) : BufTy := match i % 128 with
  | 0 => ⟨S100000x64, .f32⟩
  | 1 => ⟨S2x1000000, .i32⟩
  | 2 => ⟨S1000000, .f32⟩
  | 3 => ⟨S4x64x64, .f32⟩
  | 4 => ⟨S64, .f32⟩
  | 5 => ⟨S4x64x64, .f32⟩
  | 6 => ⟨S64, .f32⟩
  | 7 => ⟨S1x1000000, .i32⟩
  | 8 => ⟨S1000000, .i32⟩
  | 9 => ⟨S1x1000000, .i32⟩
  | 10 => ⟨S1000000, .i32⟩
  | 11 => ⟨S1x64x64, .f32⟩
  | 12 => ⟨S64x64, .f32⟩
  | 13 => ⟨S100000x64, .f32⟩
  | 14 => ⟨S1000000x1, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S1000000x64, .f32⟩
  | 25 => ⟨S1000000x64, .f32⟩
  | 26 => ⟨S_, .f32⟩
  | 27 => ⟨S100000x64, .f32⟩
  | 28 => ⟨S1000000x1, .i32⟩
  | 29 => ⟨S100000x64, .f32⟩
  | 30 => ⟨S1x64x64, .f32⟩
  | 31 => ⟨S64x64, .f32⟩
  | 32 => ⟨S100000x64, .f32⟩
  | 33 => ⟨S100000x64, .f32⟩
  | 34 => ⟨S1000000x1, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S1000000x64, .f32⟩
  | 46 => ⟨S_, .f32⟩
  | 47 => ⟨S100000x64, .f32⟩
  | 48 => ⟨S1000000x1, .i32⟩
  | 49 => ⟨S100000x64, .f32⟩
  | 50 => ⟨S1x64x64, .f32⟩
  | 51 => ⟨S64x64, .f32⟩
  | 52 => ⟨S100000x64, .f32⟩
  | 53 => ⟨S100000x64, .f32⟩
  | 54 => ⟨S1000000x1, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x64, .f32⟩
  | 65 => ⟨S1000000x64, .f32⟩
  | 66 => ⟨S_, .f32⟩
  | 67 => ⟨S100000x64, .f32⟩
  | 68 => ⟨S1000000x1, .i32⟩
  | 69 => ⟨S100000x64, .f32⟩
  | 70 => ⟨S1x64x64, .f32⟩
  | 71 => ⟨S64x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S_, .f32⟩
  | 79 => ⟨S100000x64, .f32⟩
  | 80 => ⟨S100000x64, .i1⟩
  | 81 => ⟨S_, .f32⟩
  | 82 => ⟨S100000x64, .f32⟩
  | 83 => ⟨S100000x64, .f32⟩
  | 84 => ⟨S100000x64, .f32⟩
  | 85 => ⟨S1x64x64, .f32⟩
  | 86 => ⟨S64x64, .f32⟩
  | 87 => ⟨S100000x64, .f32⟩
  | 88 => ⟨S1000000x1, .f32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S1000000x64, .f32⟩
  | 99 => ⟨S1000000x64, .f32⟩
  | 100 => ⟨S_, .f32⟩
  | 101 => ⟨S100000x64, .f32⟩
  | 102 => ⟨S1000000x1, .i32⟩
  | 103 => ⟨S100000x64, .f32⟩
  | 104 => ⟨S1x64x64, .f32⟩
  | 105 => ⟨S64x64, .f32⟩
  | 106 => ⟨S100000x64, .f32⟩
  | 107 => ⟨S100000x64, .f32⟩
  | 108 => ⟨S1000000x1, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S1000000x64, .f32⟩
  | 119 => ⟨S1000000x64, .f32⟩
  | 120 => ⟨S_, .f32⟩
  | 121 => ⟨S100000x64, .f32⟩
  | 122 => ⟨S1000000x1, .i32⟩
  | 123 => ⟨S100000x64, .f32⟩
  | 124 => ⟨S1x64x64, .f32⟩
  | 125 => ⟨S64x64, .f32⟩
  | 126 => ⟨S100000x64, .f32⟩
  | 127 => ⟨S100000x64, .f32⟩
  | _ => ⟨S100000x64, .f32⟩

abbrev hbmTy0_1 (i : Nat) : BufTy := match i % 128 with
  | 0 => ⟨S1000000x1, .f32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S1000000x64, .f32⟩
  | 11 => ⟨S1000000x64, .f32⟩
  | 12 => ⟨S_, .f32⟩
  | 13 => ⟨S100000x64, .f32⟩
  | 14 => ⟨S1000000x1, .i32⟩
  | 15 => ⟨S100000x64, .f32⟩
  | 16 => ⟨S1x64x64, .f32⟩
  | 17 => ⟨S64x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S100000x64, .f32⟩
  | 26 => ⟨S100000x64, .i1⟩
  | 27 => ⟨S_, .f32⟩
  | 28 => ⟨S100000x64, .f32⟩
  | 29 => ⟨S100000x64, .f32⟩
  | 30 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_7 : Ref sig .tc := ⟨.hbm, 89, rfl⟩
abbrev main_v67 : Ref sig .tc := ⟨.hbm, 90, rfl⟩
abbrev main_v68 : Ref sig .tc := ⟨.hbm, 91, rfl⟩
abbrev main_c_8 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_9 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_10 : Ref sig .tc := ⟨.hbm, 109, rfl⟩
abbrev main_v84 : Ref sig .tc := ⟨.hbm, 110, rfl⟩
abbrev main_v85 : Ref sig .tc := ⟨.hbm, 111, rfl⟩
abbrev main_c_11 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_13 : Ref sig .tc := ⟨.hbm, 129, rfl⟩
abbrev main_v101 : Ref sig .tc := ⟨.hbm, 130, rfl⟩
abbrev main_v102 : Ref sig .tc := ⟨.hbm, 131, rfl⟩
abbrev main_c_14 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_15 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_call1_cst : Ref sig .tc := ⟨.hbm, 152, rfl⟩
abbrev main_call1_v0 : Ref sig .tc := ⟨.hbm, 153, rfl⟩
abbrev main_call1_v1 : Ref sig .tc := ⟨.hbm, 154, rfl⟩
abbrev main_call1_cst_0 : Ref sig .tc := ⟨.hbm, 155, rfl⟩
abbrev main_call1_v2 : Ref sig .tc := ⟨.hbm, 156, rfl⟩
abbrev main_call1_v3 : Ref sig .tc := ⟨.hbm, 157, rfl⟩
abbrev main_v121 : Ref sig .tc := ⟨.hbm, 158, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  slices_S4x64x64_S1x64x64_0_0_0 : S4x64x64.Slices ![0, 0, 0] S1x64x64
  shapeCasts_S1x64x64_S64x64 : S1x64x64.ShapeCasts S64x64
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
/-
  One layer of the graph network, as a function of rows.

  A layer takes the node features `x` (one row of 64 numbers per node), the three neighbourhood sums
  `h1 = A x`, `h2 = A h1`, `h3 = A h2` of the weighted adjacency operator `A`, four 64×64 weight matrices
  `W 0 … W 3` and a bias `b`, and returns, row by row,

      leaky ( x·W 0 + h1·W 1 + h2·W 2 + h3·W 3 + b + x ),

  the sums grouped from the left. Row `r` of the result depends on row `r` of `x, h1, h2, h3` only: that is what
  lets a computation on rows padded by zeros, cut back afterwards, agree with one on the rows themselves.
  Everything here is over the extended reals, where `+` and `·` are commutative and associative; no law that
  fails at an infinity is used anywhere, so no finiteness is needed.
-/
import Idealize.ShloMosaic.PureOps.Ideal
import Idealize.ShloMosaic.Lib.ValueIdx

noncomputable section

namespace Cert.TagConv

open Idealize.ShloMosaic Idealize.ShloMosaic.ValueIdx

/-- The node features: 100000 rows of 64. -/
abbrev Rows : Shape := ⟨2, ![100000, 64]⟩
/-- A layer's four weight matrices. -/
abbrev Wts : Shape := ⟨3, ![4, 64, 64]⟩
/-- A layer's bias. -/
abbrev Bias : Shape := ⟨1, ![64]⟩

/-- The leaky rectifier: `v` where `v ≥ 0`, else the slope (the f32 nearest 1/100, the same word on both sides)
    times `v`. -/
def lrelu (v : EReal) : EReal :=
  Scalar.select (FloatOps.cmpf (F := Ideal) (φ := .f32) .oge v (Ideal.ofBits .f32 0x00000000#32)) v
    (Ideal.ofBits .f32 0x3C23D70A#32 * v)

/-- Entry `q` of one output row, from the same row of `x, h1, h2, h3`. -/
def rowCombine (x h1 h2 h3 : Fin 64 → EReal) (W : Fin 4 → Fin 64 → Fin 64 → EReal) (b : Fin 64 → EReal)
    (q : Fin 64) : EReal :=
  lrelu ((((((∑ k, x k * W 0 k q) + ∑ k, h1 k * W 1 k q) + ∑ k, h2 k * W 2 k q) + ∑ k, h3 k * W 3 k q) + b q) + x q)

/-- A whole layer over an aggregation operator `hop` (the operator `A`, applied once, twice, three times). -/
def layerFn (hop : (Rows.Idx → EReal) → (Rows.Idx → EReal)) (x : Rows.Idx → EReal) (W : Wts.Idx → EReal)
    (b : Bias.Idx → EReal) : Rows.Idx → EReal :=
  fun i => rowCombine (fun k => x (ix2 (i 0) k)) (fun k => hop x (ix2 (i 0) k)) (fun k => hop (hop x) (ix2 (i 0) k))
    (fun k => hop (hop (hop x)) (ix2 (i 0) k)) (fun j k n => W (ix3 j k n)) (fun n => b (ix1 n)) (i 1)

theorem layerFn_apply (hop : (Rows.Idx → EReal) → (Rows.Idx → EReal)) (x : Rows.Idx → EReal) (W : Wts.Idx → EReal)
    (b : Bias.Idx → EReal) (r : Fin 100000) (q : Fin 64) :
    layerFn hop x W b (ix2 r q)
      = rowCombine (fun k => x (ix2 r k)) (fun k => hop x (ix2 r k)) (fun k => hop (hop x) (ix2 r k))
          (fun k => hop (hop (hop x)) (ix2 r k)) (fun j k n => W (ix3 j k n)) (fun n => b (ix1 n)) q := rfl

/-- A whole layer from its rows: a function whose every row is `rowCombine` of the inputs' rows IS the layer. -/
theorem eq_layerFn (hop : (Rows.Idx → EReal) → (Rows.Idx → EReal)) (x : Rows.Idx → EReal) (W : Wts.Idx → EReal)
    (b : Bias.Idx → EReal) (g : Rows.Idx → EReal)
    (h : ∀ (r : Fin 100000) (q : Fin 64), g (ix2 r q)
      = rowCombine (fun k => x (ix2 r k)) (fun k => hop x (ix2 r k)) (fun k => hop (hop x) (ix2 r k))
          (fun k => hop (hop (hop x)) (ix2 r k)) (fun j k n => W (ix3 j k n)) (fun n => b (ix1 n)) q) :
    g = layerFn hop x W b := by
  funext i
  rw [eq_ix2 i]
  exact h _ _

end Cert.TagConv

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KBlock.lean ====
/-
  The dense stage of a layer on one block of 4096 rows, read at an entry: the kernel body's stored value at
  row `p`, column `q` is `rowCombine` of row `p` of its four input blocks, the weights and the bias row.
  The body rounds its matrix operands to bf16 first, which over the extended reals is the identity; each of its four
  products into a zero accumulator is a plain sum over the 64 columns.
-/
import proofs.«423142_j35880156791097_2_alg».proof.Proof.Gen.KernelIdeal.Skeleton
import proofs.«423142_j35880156791097_2_alg».proof.Proof.Spec
import proofs.«423142_j35880156791097_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.TagConv

variable [Facts]

/-- A rank-3 array cut along axis 0 from `o` reads, at `(j, b, e)`, the source at `(k, b, e)` with `k = o + j`:
    the offsets are zero on the other two axes. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Matrix `o` of a stack of four 64×64 matrices, cut out as a one-matrix stack and cast to a matrix, holds at
    `(k, n)` the stack's entry `(o, k, n)`. -/
theorem wmat_apply {α : Type} (o : Nat) (ho : o < 4) (X : S4x64x64.Idx → α) (h : S4x64x64.Slices ![o, 0, 0] S1x64x64)
    (hc : S1x64x64.ShapeCasts S64x64) (k n : Fin 64) :
    shapeCast S64x64 (extractStridedSlice S1x64x64 ![o, 0, 0] X h) hc (ix2 k n) = X (ix3 ⟨o, ho⟩ k n) :=
  (shapeCast_1ab_ab_apply _ hc k n).trans (slice3_axis0_apply o X h 0 k n ⟨o, ho⟩ rfl)

/-- The body's matrix product into a zero accumulator, at entry `(p, q)`: the sum over the 64 columns `k` of
    `lhs[p, k] · rhs[k, q]`. Its dimension numbers contract the left operand's axis 1 with the right operand's axis 0. -/
theorem mm_apply (lhs : FVec Ideal S4096x64 .bf16) (rhs : FVec Ideal S64x64 .bf16) (p : Fin 4096) (q : Fin 64) :
    matmul (F := Ideal) dot_S4096x64_S64x64_S4096x64_1_0_0_1_n_n none lhs rhs
        (constant (F := Ideal) S4096x64 .f32 0x00000000#32) (ix2 p q)
      = ∑ k : Fin 64, (lhs (ix2 p k) : EReal) * (rhs (ix2 k q) : EReal) :=
  Cert.Lib.Matmul.matmul_zero_apply (A := 4096) (K := 64) (C := 64) none lhs rhs p q

/-- Region 0's stored value at an entry. The shape casts to the same shape and the roundings to bf16 are the identity,
    the pointwise operations read at the entry, each product is a sum over the 64 columns against one matrix of the
    stack, and the bias row is broadcast down the rows; what is left is `rowCombine`, term by term. -/
theorem k0_pay1_apply (v0 v2 v4 v6 : Vec Ideal S4096x64 .f32) (v8 : Vec Ideal S4x64x64 .f32) (v10 : Vec Ideal S1x64 .f32)
    (p : Fin 4096) (q : Fin 64) :
    k0_pay1 (F := Ideal) v0 v2 v4 v6 v8 v10 (ix2 p q)
      = rowCombine (fun k => v0 (ix2 p k)) (fun k => v2 (ix2 p k)) (fun k => v4 (ix2 p k)) (fun k => v6 (ix2 p k))
          (fun j k n => v8 (ix3 j k n)) (fun n => v10 (ix2 0 n)) q := by
  unfold k0_pay1
  simp only [select_apply, cmpf_apply, mulf_apply, addf_apply, broadcast_apply, shapeCast_self, mm_apply, truncf_apply,
    broadcastTo_1b_ab_apply]
  simp only [wmat_apply 0 (by decide), wmat_apply 1 (by decide), wmat_apply 2 (by decide), wmat_apply 3 (by decide),
    truncf_apply]
  rfl

/-- The second region's body is the first's, operation for operation. -/
theorem k1_pay1_eq_k0_pay1 (v0 v2 v4 v6 : Vec Ideal S4096x64 .f32) (v8 : Vec Ideal S4x64x64 .f32)
    (v10 : Vec Ideal S1x64 .f32) :
    k1_pay1 (F := Ideal) v0 v2 v4 v6 v8 v10 = k0_pay1 (F := Ideal) v0 v2 v4 v6 v8 v10 := rfl

/-- Region 1's stored value at an entry: the same body. -/
theorem k1_pay1_apply (v0 v2 v4 v6 : Vec Ideal S4096x64 .f32) (v8 : Vec Ideal S4x64x64 .f32) (v10 : Vec Ideal S1x64 .f32)
    (p : Fin 4096) (q : Fin 64) :
    k1_pay1 (F := Ideal) v0 v2 v4 v6 v8 v10 (ix2 p q)
      = rowCombine (fun k => v0 (ix2 p k)) (fun k => v2 (ix2 p k)) (fun k => v4 (ix2 p k)) (fun k => v6 (ix2 p k))
          (fun j k n => v8 (ix3 j k n)) (fun n => v10 (ix2 0 n)) q :=
  (congrFun (k1_pay1_eq_k0_pay1 v0 v2 v4 v6 v8 v10) (ix2 p q)).trans (k0_pay1_apply v0 v2 v4 v6 v8 v10 p q)

end Cert.KernelIdeal.BlockValue

end
-- ==== Proof.KArr.lean ====
/-
  A region's output array after its 25 grid points, read at an entry. Point `t` writes rows `4096 t … 4096 t + 4095`
  of the output from the same rows of the four input arrays (and the whole weights and bias row), so the blocks tile
  the 102400 rows and the array at row `r`, column `q` is `rowCombine` of row `r` of the inputs as the region found them.
-/
import proofs.«423142_j35880156791097_2_alg».proof.Proof.Gen.KernelIdeal.Frame
import proofs.«423142_j35880156791097_2_alg».proof.Proof.KBlock
import Idealize.ShloMosaic.Lib.Pipeline.Value

set_option maxRecDepth 16384

noncomputable section

namespace Cert.KernelIdeal.ArrValue

open Idealize.ShloMosaic Idealize.ShloMosaic.TcCoe Idealize.ShloMosaic.ValueIdx Idealize.SL.Sem
open Cert.KernelIdeal Cert.KernelIdeal.Gen Cert.TagConv Cert.KernelIdeal.BlockValue

/-! ## The index maps, decided once over each grid -/

/-- Region 0: at point `t` each row window is on block `t` of its rows and column block 0, and the weights and the
    bias row are on block 0 of every axis. -/
theorem blocks0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Region 1: the same maps. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 3) = 0 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable [Facts]
variable (V : (c : Dev nD) → (b : Ref sig .tc) → Buf (Elt Ideal) ((c : Thread nD τ).loc b))

/-! ## The dense stage on whole arrays, and one entry of a block of it -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The dense stage on whole arrays: entry `(r, q)` is `rowCombine` of row `r` of the four row arrays, the weights
    and the bias row. -/
def denseRows (a0 a1 a2 a3 : S102400x64.Idx → EReal) (w : S4x64x64.Idx → EReal) (b : S1x64.Idx → EReal) :
    S102400x64.Idx → EReal :=
  fun i => rowCombine (fun k => a0 (ix2 (i 0) k)) (fun k => a1 (ix2 (i 0) k)) (fun k => a2 (ix2 (i 0) k))
    (fun k => a3 (ix2 (i 0) k)) (fun j k n => w (ix3 j k n)) (fun n => b (ix2 0 n)) (i 1)

theorem denseRows_apply (a0 a1 a2 a3 : S102400x64.Idx → EReal) (w : S4x64x64.Idx → EReal) (b : S1x64.Idx → EReal)
    (r : Fin 102400) (q : Fin 64) :
    denseRows a0 a1 a2 a3 w b (ix2 r q)
      = rowCombine (fun k => a0 (ix2 r k)) (fun k => a1 (ix2 r k)) (fun k => a2 (ix2 r k)) (fun k => a3 (ix2 r k))
          (fun j k n => w (ix3 j k n)) (fun n => b (ix2 0 n)) q := rfl

/-- Region 0's stored value at row `p` of a block is the dense stage at row `r` of the arrays, when row `p` of each
    input block is row `r` of its array and the weights and bias blocks are their whole arrays. -/
theorem stored0_entry (x0 x1 x2 x3 : Vec Ideal S4096x64 .f32) (x4 : Vec Ideal S4x64x64 .f32) (x5 : Vec Ideal S1x64 .f32)
    (a0 a1 a2 a3 : S102400x64.Idx → EReal) (w : S4x64x64.Idx → EReal) (b : S1x64.Idx → EReal)
    (p : Fin 4096) (q : Fin 64) (r : Fin 102400)
    (h0 : ∀ k : Fin 64, x0 (ix2 p k) = a0 (ix2 r k)) (h1 : ∀ k : Fin 64, x1 (ix2 p k) = a1 (ix2 r k))
    (h2 : ∀ k : Fin 64, x2 (ix2 p k) = a2 (ix2 r k)) (h3 : ∀ k : Fin 64, x3 (ix2 p k) = a3 (ix2 r k))
    (h4 : x4 = w) (h5 : x5 = b) :
    k0_pay1 (F := Ideal) x0 x1 x2 x3 x4 x5 (ix2 p q) = denseRows a0 a1 a2 a3 w b (ix2 r q) := by
  rw [k0_pay1_apply, denseRows_apply, funext h0, funext h1, funext h2, funext h3, h4, h5]

/-- Region 1's stored value, likewise. -/
theorem stored1_entry (x0 x1 x2 x3 : Vec Ideal S4096x64 .f32) (x4 : Vec Ideal S4x64x64 .f32) (x5 : Vec Ideal S1x64 .f32)
    (a0 a1 a2 a3 : S102400x64.Idx → EReal) (w : S4x64x64.Idx → EReal) (b : S1x64.Idx → EReal)
    (p : Fin 4096) (q : Fin 64) (r : Fin 102400)
    (h0 : ∀ k : Fin 64, x0 (ix2 p k) = a0 (ix2 r k)) (h1 : ∀ k : Fin 64, x1 (ix2 p k) = a1 (ix2 r k))
    (h2 : ∀ k : Fin 64, x2 (ix2 p k) = a2 (ix2 r k)) (h3 : ∀ k : Fin 64, x3 (ix2 p k) = a3 (ix2 r k))
    (h4 : x4 = w) (h5 : x5 = b) :
    k1_pay1 (F := Ideal) x0 x1 x2 x3 x4 x5 (ix2 p q) = denseRows a0 a1 a2 a3 w b (ix2 r q) := by
  rw [k1_pay1_apply, denseRows_apply, funext h0, funext h1, funext h2, funext h3, h4, h5]

/-! ## Region 0 -/

/-! Row `p` of a row window's block at point `t` is row `4096 t + p` of its array: a block's coordinate is the block
    index times the block's size plus the coordinate inside the block. -/

theorem rowBlock0_0 (c : Dev nD) (t : Fin cfg0.N) (p : Fin 4096) (k : Fin 64) (r : Fin 102400)
    (hr : r.val = t.val * 4096 + p.val) :
    (iblk0 (F := Ideal) V c 0 t : S4096x64.Idx → EReal) (ix2 p k) = (V c main_v43 : S102400x64.Idx → EReal) (ix2 r k) := by
  have e := blocks0 t
  show (V c main_v43 : S102400x64.Idx → EReal) (((cfg0.win 0).blk t).view.emb (ix2 p k)) = _
  refine congrArg _ (funext fun a => Fin.ext ?_)
  match a with
  | ⟨0, _⟩ => show win0_0.index t (0 : Fin 2) * 4096 + 1 * p.val = r.val; omega
  | ⟨1, _⟩ => show win0_0.index t (1 : Fin 2) * 64 + 1 * k.val = k.val; omega

theorem rowBlock0_1 (c : Dev nD) (t : Fin cfg0.N) (p : Fin 4096) (k : Fin 64) (r : Fin 102400)
    (hr : r.val = t.val * 4096 + p.val) :
    (iblk0 (F := Ideal) V c 1 t : S4096x64.Idx → EReal) (ix2 p k) = (V c main_v44 : S102400x64.Idx → EReal) (ix2 r k) := by
  have e := blocks0 t
  show (V c main_v44 : S102400x64.Idx → EReal) (((cfg0.win 1).blk t).view.emb (ix2 p k)) = _
  refine congrArg _ (funext fun a => Fin.ext ?_)
  match a with
  | ⟨0, _⟩ => show win0_1.index t (0 : Fin 2) * 4096 + 1 * p.val = r.val; omega
  | ⟨1, _⟩ => show win0_1.index t (1 : Fin 2) * 64 + 1 * k.val = k.val; omega

theorem rowBlock0_2 (c : Dev nD) (t : Fin cfg0.N) (p : Fin 4096) (k : Fin 64) (r : Fin 102400)
    (hr : r.val = t.val * 4096 + p.val) :
    (iblk0 (F := Ideal) V c 2 t : S4096x64.Idx → EReal) (ix2 p k) = (V c main_v45 : S102400x64.Idx → EReal) (ix2 r k) := by
  have e := blocks0 t
  show (V c main_v45 : S102400x64.Idx → EReal) (((cfg0.win 2).blk t).view.emb (ix2 p k)) = _
  refine congrArg _ (funext fun a => Fin.ext ?_)
  match a with
  | ⟨0, _⟩ => show win0_2.index t (0 : Fin 2) * 4096 + 1 * p.val = r.val; omega
  | ⟨1, _⟩ => show win0_2.index t (1 : Fin 2) * 64 + 1 * k.val = k.val; omega

theorem rowBlock0_3 (c : Dev nD) (t : Fin cfg0.N) (p : Fin 4096) (k : Fin 64) (r : Fin 102400)
    (hr : r.val = t.val * 4096 + p.val) :
    (iblk0 (F := Ideal) V c 3 t : S4096x64.Idx → EReal) (ix2 p k) = (V c main_v46 : S102400x64.Idx → EReal) (ix2 r k) := by
  have e := blocks0 t
  show (V c main_v46 : S102400x64.Idx → EReal) (((cfg0.win 3).blk t).view.emb (ix2 p k)) = _
  refine congrArg _ (funext fun a => Fin.ext ?_)
  match a with
  | ⟨0, _⟩ => show win0_3.index t (0 : Fin 2) * 4096 + 1 * p.val = r.val; omega
  | ⟨1, _⟩ => show win0_3.index t (1 : Fin 2) * 64 + 1 * k.val = k.val; omega

/-- The weights' block at every point is the whole array. -/
theorem weights0 (c : Dev nD) (t : Fin cfg0.N) :
    (iblk0 (F := Ideal) V c 4 t : S4x64x64.Idx → EReal) = (V c main_arg3 : S4x64x64.Idx → EReal) := by
  have e := blocks0 t
  funext y
  show (V c main_arg3 : S4x64x64.Idx → EReal) (((cfg0.win 4).blk t).view.emb y) = _
  refine congrArg _ (funext fun a => Fin.ext ?_)
  match a with
  | ⟨0, _⟩ => show win0_4.index t (0 : Fin 3) * 4 + 1 * (y 0).val = (y 0).val; omega
  | ⟨1, _⟩ => show win0_4.index t (1 : Fin 3) * 64 + 1 * (y 1).val = (y 1).val; omega
  | ⟨2, _⟩ => show win0_4.index t (2 : Fin 3) * 64 + 1 * (y 2).val = (y 2).val; omega

/-- The bias row's block at every point is the whole array. -/
theorem bias0 (c : Dev nD) (t : Fin cfg0.N) :
    (iblk0 (F := Ideal) V c 5 t : S1x64.Idx → EReal) = (V c main_v47 : S1x64.Idx → EReal) := by
  have e := blocks0 t
  funext y
  show (V c main_v47 : S1x64.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- What point `t` writes back is block `t` of the dense stage of the arrays as the region found them. -/
theorem flushed0 (c : Dev nD) (t : Fin cfg0.N) :
    (dat0 (F := Ideal) V c).flushed 6 t
      = ((cfg0.win 6).blk t).view.read (Elt Ideal)
          (denseRows (V c main_v43) (V c main_v44) (V c main_v45) (V c main_v46) (V c main_arg3) (V c main_v47)) := by
  show (cfg0.win 6).cut (grid0.coords t) ((dat0 V c).after 6 t) = _
  rw [after0_6]
  unfold out0_6
  rw [View.canon_unit_zero zeros2]
  simp only [View.ld_unit_zero (S := S4096x64) zeros2, View.ld_unit_zero (S := S4x64x64) zeros3,
    View.ld_unit_zero (S := S1x64) zeros2]
  have e := blocks0 t
  have ht : t.val < grid0.N := t.isLt
  rw [N_0] at ht
  refine funext fun (j : S4096x64.Idx) => ?_
  obtain ⟨p, q, rfl⟩ : ∃ (p : Fin 4096) (q : Fin 64), j = ix2 p q := ⟨j 0, j 1, eq_ix2 j⟩
  have hp : p.val < 4096 := p.isLt
  have hemb : ((cfg0.win 6).blk t).view.emb (ix2 p q) = ix2 (⟨t.val * 4096 + p.val, by omega⟩ : Fin 102400) q := by
    funext a
    apply Fin.ext
    match a with
    | ⟨0, _⟩ => show win0_6.index t (0 : Fin 2) * 4096 + 1 * p.val = t.val * 4096 + p.val; omega
    | ⟨1, _⟩ => show win0_6.index t (1 : Fin 2) * 64 + 1 * q.val = q.val; omega
  show k0_pay1 (F := Ideal) _ _ _ _ _ _ (ix2 p q) = denseRows _ _ _ _ _ _ (((cfg0.win 6).blk t).view.emb (ix2 p q))
  rw [hemb]
  exact stored0_entry _ _ _ _ _ _ _ _ _ _ _ _ p q _ (fun k => rowBlock0_0 V c t p k _ rfl) (fun k => rowBlock0_1 V c t p k _ rfl)
    (fun k => rowBlock0_2 V c t p k _ rfl) (fun k => rowBlock0_3 V c t p k _ rfl) (weights0 V c t) (bias0 V c t)

/-- An index of the output array is in point `t`'s block iff each coordinate is in the block's range on its axis. -/
theorem mem_rows0 (t : Fin cfg0.N) (i : S102400x64.Idx) :
    i ∈ ((cfg0.win 6).blk t).view.set
      ↔ ∀ a : Fin 2, win0_6.index t a * S4096x64.size a ≤ (i a).val
          ∧ (i a).val < win0_6.index t a * S4096x64.size a + S4096x64.size a := by
  show i ∈ ((View.whole main_v48).slice (win0_6.rect t)).set ↔ _
  rw [View.set_slice_whole, Rect.mem_set_unit]
  exact Iff.rfl

/-- Every row is in some point's block: row `r` in that of point `r / 4096`. -/
theorem covered0 (i : S102400x64.Idx) :
    ∃ t : Fin cfg0.N, (cfg0.win 6).flush t = true ∧ i ∈ ((cfg0.win 6).blk t).view.set := by
  have hi0 : (i 0).val < 102400 := (i 0).isLt
  have hi1 : (i 1).val < 64 := (i 1).isLt
  obtain ⟨t, ht⟩ : ∃ t : Fin cfg0.N, t.val = (i 0).val / 4096 :=
    ⟨⟨(i 0).val / 4096, by show _ < grid0.N; rw [N_0]; omega⟩, rfl⟩
  have e := blocks0 t
  refine ⟨t, flush0_6 t, ?_⟩
  rw [mem_rows0]
  intro a
  match a with
  | ⟨0, _⟩ =>
    show win0_6.index t (0 : Fin 2) * 4096 ≤ (i 0).val ∧ (i 0).val < win0_6.index t (0 : Fin 2) * 4096 + 4096
    omega
  | ⟨1, _⟩ =>
    show win0_6.index t (1 : Fin 2) * 64 ≤ (i 1).val ∧ (i 1).val < win0_6.index t (1 : Fin 2) * 64 + 64
    omega

/-- The output array after the grid is the dense stage of the arrays as the region found them. -/
theorem arr0_eq (c : Dev nD) :
    (dat0 (F := Ideal) V c).arrAt 6 cfg0.N
      = denseRows (V c main_v43) (V c main_v44) (V c main_v45) (V c main_v46) (V c main_arg3) (V c main_v47) :=
  (dat0 (F := Ideal) V c).arrAt_eq_of_cover 6 _ (fun t _ => flushed0 V c t) covered0

/-- Region 0's output array at an entry, from the arrays the region was entered with. -/
theorem arr0_apply (c : Dev nD) (r : Fin 102400) (q : Fin 64) :
    ((dat0 (F := Ideal) V c).arrAt 6 cfg0.N : S102400x64.Idx → EReal) (ix2 r q)
      = rowCombine (fun k => (V c main_v43 : S102400x64.Idx → EReal) (ix2 r k)) (fun k => (V c main_v44 : S102400x64.Idx → EReal) (ix2 r k))
          (fun k => (V c main_v45 : S102400x64.Idx → EReal) (ix2 r k)) (fun k => (V c main_v46 : S102400x64.Idx → EReal) (ix2 r k))
          (fun j k n => (V c main_arg3 : S4x64x64.Idx → EReal) (ix3 j k n)) (fun n => (V c main_v47 : S1x64.Idx → EReal) (ix2 0 n)) q :=
  (congrFun (arr0_eq V c) (ix2 r q)).trans (denseRows_apply _ _ _ _ _ _ r q)

/-! ## Region 1 -/

/-! Row `p` of a row window's block at point `t` is row `4096 t + p` of its array: a block's coordinate is the block
    index times the block's size plus the coordinate inside the block. -/

theorem rowBlock1_0 (c : Dev nD) (t : Fin cfg1.N) (p : Fin 4096) (k : Fin 64) (r : Fin 102400)
    (hr : r.val = t.val * 4096 + p.val) :
    (iblk1 (F := Ideal) V c 0 t : S4096x64.Idx → EReal) (ix2 p k) = (V c main_v89 : S102400x64.Idx → EReal) (ix2 r k) := by
  have e := blocks1 t
  show (V c main_v89 : S102400x64.Idx → EReal) (((cfg1.win 0).blk t).view.emb (ix2 p k)) = _
  refine congrArg _ (funext fun a => Fin.ext ?_)
  match a with
  | ⟨0, _⟩ => show win1_0.index t (0 : Fin 2) * 4096 + 1 * p.val = r.val; omega
  | ⟨1, _⟩ => show win1_0.index t (1 : Fin 2) * 64 + 1 * k.val = k.val; omega

theorem rowBlock1_1 (c : Dev nD) (t : Fin cfg1.N) (p : Fin 4096) (k : Fin 64) (r : Fin 102400)
    (hr : r.val = t.val * 4096 + p.val) :
    (iblk1 (F := Ideal) V c 1 t : S4096x64.Idx → EReal) (ix2 p k) = (V c main_v90 : S102400x64.Idx → EReal) (ix2 r k) := by
  have e := blocks1 t
  show (V c main_v90 : S102400x64.Idx → EReal) (((cfg1.win 1).blk t).view.emb (ix2 p k)) = _
  refine congrArg _ (funext fun a => Fin.ext ?_)
  match a with
  | ⟨0, _⟩ => show win1_1.index t (0 : Fin 2) * 4096 + 1 * p.val = r.val; omega
  | ⟨1, _⟩ => show win1_1.index t (1 : Fin 2) * 64 + 1 * k.val = k.val; omega

theorem rowBlock1_2 (c : Dev nD) (t : Fin cfg1.N) (p : Fin 4096) (k : Fin 64) (r : Fin 102400)
    (hr : r.val = t.val * 4096 + p.val) :
    (iblk1 (F := Ideal) V c 2 t : S4096x64.Idx → EReal) (ix2 p k) = (V c main_v91 : S102400x64.Idx → EReal) (ix2 r k) := by
  have e := blocks1 t
  show (V c main_v91 : S102400x64.Idx → EReal) (((cfg1.win 2).blk t).view.emb (ix2 p k)) = _
  refine congrArg _ (funext fun a => Fin.ext ?_)
  match a with
  | ⟨0, _⟩ => show win1_2.index t (0 : Fin 2) * 4096 + 1 * p.val = r.val; omega
  | ⟨1, _⟩ => show win1_2.index t (1 : Fin 2) * 64 + 1 * k.val = k.val; omega

theorem rowBlock1_3 (c : Dev nD) (t : Fin cfg1.N) (p : Fin 4096) (k : Fin 64) (r : Fin 102400)
    (hr : r.val = t.val * 4096 + p.val) :
    (iblk1 (F := Ideal) V c 3 t : S4096x64.Idx → EReal) (ix2 p k) = (V c main_v92 : S102400x64.Idx → EReal) (ix2 r k) := by
  have e := blocks1 t
  show (V c main_v92 : S102400x64.Idx → EReal) (((cfg1.win 3).blk t).view.emb (ix2 p k)) = _
  refine congrArg _ (funext fun a => Fin.ext ?_)
  match a with
  | ⟨0, _⟩ => show win1_3.index t (0 : Fin 2) * 4096 + 1 * p.val = r.val; omega
  | ⟨1, _⟩ => show win1_3.index t (1 : Fin 2) * 64 + 1 * k.val = k.val; omega

/-- The weights' block at every point is the whole array. -/
theorem weights1 (c : Dev nD) (t : Fin cfg1.N) :
    (iblk1 (F := Ideal) V c 4 t : S4x64x64.Idx → EReal) = (V c main_arg5 : S4x64x64.Idx → EReal) := by
  have e := blocks1 t
  funext y
  show (V c main_arg5 : S4x64x64.Idx → EReal) (((cfg1.win 4).blk t).view.emb y) = _
  refine congrArg _ (funext fun a => Fin.ext ?_)
  match a with
  | ⟨0, _⟩ => show win1_4.index t (0 : Fin 3) * 4 + 1 * (y 0).val = (y 0).val; omega
  | ⟨1, _⟩ => show win1_4.index t (1 : Fin 3) * 64 + 1 * (y 1).val = (y 1).val; omega
  | ⟨2, _⟩ => show win1_4.index t (2 : Fin 3) * 64 + 1 * (y 2).val = (y 2).val; omega

/-- The bias row's block at every point is the whole array. -/
theorem bias1 (c : Dev nD) (t : Fin cfg1.N) :
    (iblk1 (F := Ideal) V c 5 t : S1x64.Idx → EReal) = (V c main_v93 : S1x64.Idx → EReal) := by
  have e := blocks1 t
  funext y
  show (V c main_v93 : S1x64.Idx → EReal) (((cfg1.win 5).blk t).view.emb y) = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back is block `t` of the dense stage of the arrays as the region found them. -/
theorem flushed1 (c : Dev nD) (t : Fin cfg1.N) :
    (dat1 (F := Ideal) V c).flushed 6 t
      = ((cfg1.win 6).blk t).view.read (Elt Ideal)
          (denseRows (V c main_v89) (V c main_v90) (V c main_v91) (V c main_v92) (V c main_arg5) (V c main_v93)) := by
  show (cfg1.win 6).cut (grid1.coords t) ((dat1 V c).after 6 t) = _
  rw [after1_6]
  unfold out1_6
  rw [View.canon_unit_zero zeros2]
  simp only [View.ld_unit_zero (S := S4096x64) zeros2, View.ld_unit_zero (S := S4x64x64) zeros3,
    View.ld_unit_zero (S := S1x64) zeros2]
  have e := blocks1 t
  have ht : t.val < grid1.N := t.isLt
  rw [N_1] at ht
  refine funext fun (j : S4096x64.Idx) => ?_
  obtain ⟨p, q, rfl⟩ : ∃ (p : Fin 4096) (q : Fin 64), j = ix2 p q := ⟨j 0, j 1, eq_ix2 j⟩
  have hp : p.val < 4096 := p.isLt
  have hemb : ((cfg1.win 6).blk t).view.emb (ix2 p q) = ix2 (⟨t.val * 4096 + p.val, by omega⟩ : Fin 102400) q := by
    funext a
    apply Fin.ext
    match a with
    | ⟨0, _⟩ => show win1_6.index t (0 : Fin 2) * 4096 + 1 * p.val = t.val * 4096 + p.val; omega
    | ⟨1, _⟩ => show win1_6.index t (1 : Fin 2) * 64 + 1 * q.val = q.val; omega
  show k1_pay1 (F := Ideal) _ _ _ _ _ _ (ix2 p q) = denseRows _ _ _ _ _ _ (((cfg1.win 6).blk t).view.emb (ix2 p q))
  rw [hemb]
  exact stored1_entry _ _ _ _ _ _ _ _ _ _ _ _ p q _ (fun k => rowBlock1_0 V c t p k _ rfl) (fun k => rowBlock1_1 V c t p k _ rfl)
    (fun k => rowBlock1_2 V c t p k _ rfl) (fun k => rowBlock1_3 V c t p k _ rfl) (weights1 V c t) (bias1 V c t)

/-- An index of the output array is in point `t`'s block iff each coordinate is in the block's range on its axis. -/
theorem mem_rows1 (t : Fin cfg1.N) (i : S102400x64.Idx) :
    i ∈ ((cfg1.win 6).blk t).view.set
      ↔ ∀ a : Fin 2, win1_6.index t a * S4096x64.size a ≤ (i a).val
          ∧ (i a).val < win1_6.index t a * S4096x64.size a + S4096x64.size a := by
  show i ∈ ((View.whole main_v94).slice (win1_6.rect t)).set ↔ _
  rw [View.set_slice_whole, Rect.mem_set_unit]
  exact Iff.rfl

/-- Every row is in some point's block: row `r` in that of point `r / 4096`. -/
theorem covered1 (i : S102400x64.Idx) :
    ∃ t : Fin cfg1.N, (cfg1.win 6).flush t = true ∧ i ∈ ((cfg1.win 6).blk t).view.set := by
  have hi0 : (i 0).val < 102400 := (i 0).isLt
  have hi1 : (i 1).val < 64 := (i 1).isLt
  obtain ⟨t, ht⟩ : ∃ t : Fin cfg1.N, t.val = (i 0).val / 4096 :=
    ⟨⟨(i 0).val / 4096, by show _ < grid1.N; rw [N_1]; omega⟩, rfl⟩
  have e := blocks1 t
  refine ⟨t, flush1_6 t, ?_⟩
  rw [mem_rows1]
  intro a
  match a with
  | ⟨0, _⟩ =>
    show win1_6.index t (0 : Fin 2) * 4096 ≤ (i 0).val ∧ (i 0).val < win1_6.index t (0 : Fin 2) * 4096 + 4096
    omega
  | ⟨1, _⟩ =>
    show win1_6.index t (1 : Fin 2) * 64 ≤ (i 1).val ∧ (i 1).val < win1_6.index t (1 : Fin 2) * 64 + 64
    omega

/-- The output array after the grid is the dense stage of the arrays as the region found them. -/
theorem arr1_eq (c : Dev nD) :
    (dat1 (F := Ideal) V c).arrAt 6 cfg1.N
      = denseRows (V c main_v89) (V c main_v90) (V c main_v91) (V c main_v92) (V c main_arg5) (V c main_v93) :=
  (dat1 (F := Ideal) V c).arrAt_eq_of_cover 6 _ (fun t _ => flushed1 V c t) covered1

/-- Region 1's output array at an entry. -/
theorem arr1_apply (c : Dev nD) (r : Fin 102400) (q : Fin 64) :
    ((dat1 (F := Ideal) V c).arrAt 6 cfg1.N : S102400x64.Idx → EReal) (ix2 r q)
      = rowCombine (fun k => (V c main_v89 : S102400x64.Idx → EReal) (ix2 r k)) (fun k => (V c main_v90 : S102400x64.Idx → EReal) (ix2 r k))
          (fun k => (V c main_v91 : S102400x64.Idx → EReal) (ix2 r k)) (fun k => (V c main_v92 : S102400x64.Idx → EReal) (ix2 r k))
          (fun j k n => (V c main_arg5 : S4x64x64.Idx → EReal) (ix3 j k n)) (fun n => (V c main_v93 : S1x64.Idx → EReal) (ix2 0 n)) q :=
  (congrFun (arr1_eq V c) (ix2 r q)).trans (denseRows_apply _ _ _ _ _ _ r q)

end Cert.KernelIdeal.ArrValue

end
-- ==== Proof.KVal.lean ====
/-
  The host side of the kernel's program, as functions of arrays: the adjacency operator `hop`, the zero rows
  appended before a layer's dense stage (`padRows`), the bias as a one-row matrix (`rowVec`) and the cut back
  to the 100000 node rows after it (`cutRows`). They are stated over any float family; nothing here is opened
  by the value proof except `padRows`, `rowVec` and `cutRows`, each read at one entry.
-/
import proofs.«423142_j35880156791097_2_alg».proof.KernelIdeal

noncomputable section

namespace Cert.KernelIdeal.HostValue

open Idealize.ShloMosaic Cert.KernelIdeal

variable {F : FTy → Type} [FloatOps F] [Facts]

open Facts₀ Facts

/-- The edges' source nodes, as gather indices: row 0 of the edge list, a negative entry wrapped once by the node
    count, one index per edge. -/
def srcIx (e : IVec S2x1000000 32) : IVec S1000000x1 32 :=
  broadcastInDim S1000000x1 ![0] bcast_S1000000_S1000000x1_0
    (select
      (cmpi .slt (shapeCast S1000000 (extractStridedSlice S1x1000000 ![0, 0] e slices_S2x1000000_S1x1000000_0_0) shapeCasts_S1x1000000_S1000000)
        (broadcastInDim S1000000 ![] bcast_S_S1000000 (constantI S_ 32 0#32)))
      (addi (shapeCast S1000000 (extractStridedSlice S1x1000000 ![0, 0] e slices_S2x1000000_S1x1000000_0_0) shapeCasts_S1x1000000_S1000000)
        (broadcastInDim S1000000 ![] bcast_S_S1000000 (constantI S_ 32 100000#32)))
      (shapeCast S1000000 (extractStridedSlice S1x1000000 ![0, 0] e slices_S2x1000000_S1x1000000_0_0) shapeCasts_S1x1000000_S1000000))

/-- The edges' destination nodes, as scatter indices: row 1 of the edge list, one index per edge. -/
def dstIx (e : IVec S2x1000000 32) : IVec S1000000x1 32 :=
  broadcastInDim S1000000x1 ![0] bcast_S1000000_S1000000x1_0
    (shapeCast S1000000 (extractStridedSlice S1x1000000 ![1, 0] e slices_S2x1000000_S1x1000000_1_0) shapeCasts_S1x1000000_S1000000)

/-- The weighted adjacency operator: node `i`'s row is the sum, over the edges into `i`, of the edge's weight times
    its source node's row (a row gather, a product with the weights spread along each row, a scatter-add into zeros). -/
def hop (e : IVec S2x1000000 32) (ew : FVec F S1000000 .f32) (h : FVec F S100000x64 .f32) : FVec F S100000x64 .f32 :=
  Host.scatterAdd scatter_S100000x64_S1000000x1_S1000000x64_1_0_0_1
    (broadcastInDim S100000x64 ![] bcast_S_S100000x64 (constant S_ .f32 0x00000000#32))
    (dstIx e)
    (mulf (broadcastInDim S1000000x64 ![0, 1] bcast_S1000000x1_S1000000x64_0_1 (broadcastInDim S1000000x1 ![0] bcast_S1000000_S1000000x1_0 ew))
      (Host.gather gather_S100000x64_S1000000x1_S1000000x64_1_0_n_n_0_1_164 h (srcIx e)))

/-- 2400 rows of zeros appended below the node rows, to a whole number of 4096-row blocks. -/
def padRows (x : FVec F S100000x64 .f32) : FVec F S102400x64 .f32 :=
  pad S102400x64 ![0, 0] ![2400, 0] ![0, 0] x (sitofp (F := F) .f32 (constantI S_ 32 0#32)) pads_S100000x64_S102400x64_024000_000 h_S_

/-- The bias as a matrix of one row. -/
def rowVec (b : FVec F S64 .f32) : FVec F S1x64 .f32 :=
  shapeCast S1x64 b shapeCasts_S64_S1x64

/-- The first 100000 rows. -/
def cutRows (y : FVec F S102400x64 .f32) : FVec F S100000x64 .f32 :=
  extractStridedSlice S100000x64 ![0, 0] y slices_S102400x64_S100000x64_0_0

end Cert.KernelIdeal.HostValue

end
-- ==== Proof.KThread.lean ====
/-
  What each region of the kernel's program is entered with, and what @main returns, read back through the host
  operations between the regions: the first region's four row inputs are the node features and their one-, two- and
  three-fold aggregates, each with zero rows appended; the second region's are the same of the first layer's result
  (the first region's output cut back to the node rows); the result is the second region's output cut back.
-/
import proofs.«423142_j35880156791097_2_alg».proof.Proof.Gen.KernelIdeal.Frame
import proofs.«423142_j35880156791097_2_alg».proof.Proof.KVal
import Idealize.ShloMosaic.Lib.StableHlo.Run

set_option maxRecDepth 16384

noncomputable section

namespace Cert.KernelIdeal.Thread

open Idealize.ShloMosaic Idealize.ShloMosaic.TcCoe Idealize.SL.Sem
open Cert.KernelIdeal Cert.KernelIdeal.Gen Cert.KernelIdeal.HostValue

variable {F : FTy → Type} [FloatOps F] [Facts]
variable (m : (ℓ : Loc nD τ sig) → Buf (Elt F) ℓ) (ρ : Dev nD → PrngReg)

/-! ## The entry valuations as folds of the stretches -/

/-- Region 0's entry valuation: the nine stretches before it, folded over the launch memory. -/
theorem V9_fold (c : Dev nD) (b : Ref sig .tc) : V9 m ρ c b
    = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
      (StableHlo.after hostOps0 (W0 m ρ c))))))))) (Proc.devRef .tc b) := rfl

/-- Reads a buffer of region 0's entry valuation back through the nine stretches: every operation's result at its own
    buffer is its function of its operands' contents, and at any other buffer what was there. -/
local macro "read_run0" : tactic =>
  `(tactic| (rw [V9_fold]
             simp only [hostOps0, hostOps0_1, hostOps0_2, hostOps0_3, hostOps0_4, hostOps0_5, hostOps0_6, hostOps0_7, hostOps0_8]
             after_results_simp
             try simp only [StableHlo.TRef.ofBuf, StableHlo.TRef.toBuf, cast_eq]))

/-! ## Region 0's entry -/

theorem V9_v43 (c : Dev nD) : V9 m ρ c main_v43 = padRows (m ((c : Thread nD τ).loc main_arg0)) := by
  read_run0
  rfl
theorem V9_v44 (c : Dev nD) : V9 m ρ c main_v44
    = padRows (hop (m ((c : Thread nD τ).loc main_arg1)) (m ((c : Thread nD τ).loc main_arg2)) (m ((c : Thread nD τ).loc main_arg0))) := by
  read_run0
  rfl
theorem V9_v45 (c : Dev nD) : V9 m ρ c main_v45
    = padRows (hop (m ((c : Thread nD τ).loc main_arg1)) (m ((c : Thread nD τ).loc main_arg2))
        (hop (m ((c : Thread nD τ).loc main_arg1)) (m ((c : Thread nD τ).loc main_arg2)) (m ((c : Thread nD τ).loc main_arg0)))) := by
  read_run0
  rfl
theorem V9_v46 (c : Dev nD) : V9 m ρ c main_v46
    = padRows (hop (m ((c : Thread nD τ).loc main_arg1)) (m ((c : Thread nD τ).loc main_arg2))
        (hop (m ((c : Thread nD τ).loc main_arg1)) (m ((c : Thread nD τ).loc main_arg2))
          (hop (m ((c : Thread nD τ).loc main_arg1)) (m ((c : Thread nD τ).loc main_arg2)) (m ((c : Thread nD τ).loc main_arg0))))) := by
  read_run0
  rfl
theorem V9_arg3 (c : Dev nD) : V9 m ρ c main_arg3 = m ((c : Thread nD τ).loc main_arg3) := by
  read_run0
theorem V9_v47 (c : Dev nD) : V9 m ρ c main_v47 = rowVec (m ((c : Thread nD τ).loc main_arg4)) := by
  read_run0
  rfl

/-! ## Region 1's entry, from region 0's exit -/

/-- The first layer's result: region 0's output array cut back to the node rows. -/
abbrev mid (c : Dev nD) : FVec F S100000x64 .f32 := cutRows (W10 m ρ c (Proc.devRef .tc main_v48))

/-- Region 1's entry valuation: the nine stretches between the regions, folded over region 0's exit valuation. -/
theorem V19_fold (c : Dev nD) (b : Ref sig .tc) : V19 m ρ c b
    = StableHlo.after hostOps1_8 (StableHlo.after hostOps1_7 (StableHlo.after hostOps1_6 (StableHlo.after hostOps1_5
      (StableHlo.after hostOps1_4 (StableHlo.after hostOps1_3 (StableHlo.after hostOps1_2 (StableHlo.after hostOps1_1
      (StableHlo.after hostOps1 (W10 m ρ c))))))))) (Proc.devRef .tc b) := rfl

/-! What the second layer's stretches read of region 0's exit valuation, besides region 0's output: the edge list's two
    rows as vectors (computed once, before region 0), the edge weights and the second layer's parameters. None is an
    array of region 0, so each is what region 0 was entered with, read back to the launch memory. -/

theorem W10_v1 (c : Dev nD) : W10 m ρ c (no_index (Proc.devRef .tc main_v1))
    = shapeCast S1000000 (extractStridedSlice S1x1000000 ![0, 0] (m ((c : Thread nD τ).loc main_arg1)) slices_S2x1000000_S1x1000000_0_0)
        shapeCasts_S1x1000000_S1000000 := by
  rw [W10_of_ne m ρ c main_v1 (by decide)]
  show V9 m ρ c main_v1 = _
  read_run0
  rfl
theorem W10_v3 (c : Dev nD) : W10 m ρ c (no_index (Proc.devRef .tc main_v3))
    = shapeCast S1000000 (extractStridedSlice S1x1000000 ![1, 0] (m ((c : Thread nD τ).loc main_arg1)) slices_S2x1000000_S1x1000000_1_0)
        shapeCasts_S1x1000000_S1000000 := by
  rw [W10_of_ne m ρ c main_v3 (by decide)]
  show V9 m ρ c main_v3 = _
  read_run0
  rfl
theorem W10_arg2 (c : Dev nD) : W10 m ρ c (no_index (Proc.devRef .tc main_arg2)) = m ((c : Thread nD τ).loc main_arg2) := by
  rw [W10_of_ne m ρ c main_arg2 (by decide)]
  show V9 m ρ c main_arg2 = _
  read_run0
theorem W10_arg5 (c : Dev nD) : W10 m ρ c (no_index (Proc.devRef .tc main_arg5)) = m ((c : Thread nD τ).loc main_arg5) := by
  rw [W10_of_ne m ρ c main_arg5 (by decide)]
  show V9 m ρ c main_arg5 = _
  read_run0
theorem W10_arg6 (c : Dev nD) : W10 m ρ c (no_index (Proc.devRef .tc main_arg6)) = m ((c : Thread nD τ).loc main_arg6) := by
  rw [W10_of_ne m ρ c main_arg6 (by decide)]
  show V9 m ρ c main_arg6 = _
  read_run0

/-- Reads a buffer of region 1's entry valuation back through the nine stretches to region 0's exit valuation, and what
    is read there that is no array of region 0 back to the launch memory. -/
local macro "read_run1" : tactic =>
  `(tactic| (rw [V19_fold]
             simp only [hostOps1, hostOps1_1, hostOps1_2, hostOps1_3, hostOps1_4, hostOps1_5, hostOps1_6, hostOps1_7, hostOps1_8]
             after_results_simp
             try simp only [StableHlo.TRef.ofBuf, StableHlo.TRef.toBuf, cast_eq]
             try simp only [W10_v1, W10_v3, W10_arg2, W10_arg5, W10_arg6]))

theorem V19_v89 (c : Dev nD) : V19 m ρ c main_v89 = padRows (mid m ρ c) := by
  read_run1
  rfl
theorem V19_v90 (c : Dev nD) : V19 m ρ c main_v90
    = padRows (hop (m ((c : Thread nD τ).loc main_arg1)) (m ((c : Thread nD τ).loc main_arg2)) (mid m ρ c)) := by
  read_run1
  rfl
theorem V19_v91 (c : Dev nD) : V19 m ρ c main_v91
    = padRows (hop (m ((c : Thread nD τ).loc main_arg1)) (m ((c : Thread nD τ).loc main_arg2))
        (hop (m ((c : Thread nD τ).loc main_arg1)) (m ((c : Thread nD τ).loc main_arg2)) (mid m ρ c))) := by
  read_run1
  rfl
theorem V19_v92 (c : Dev nD) : V19 m ρ c main_v92
    = padRows (hop (m ((c : Thread nD τ).loc main_arg1)) (m ((c : Thread nD τ).loc main_arg2))
        (hop (m ((c : Thread nD τ).loc main_arg1)) (m ((c : Thread nD τ).loc main_arg2))
          (hop (m ((c : Thread nD τ).loc main_arg1)) (m ((c : Thread nD τ).loc main_arg2)) (mid m ρ c)))) := by
  read_run1
  rfl
theorem V19_arg5 (c : Dev nD) : V19 m ρ c main_arg5 = m ((c : Thread nD τ).loc main_arg5) := by
  read_run1
theorem V19_v93 (c : Dev nD) : V19 m ρ c main_v93 = rowVec (m ((c : Thread nD τ).loc main_arg6)) := by
  read_run1
  rfl

/-! ## The regions' exits and @main's result -/

theorem W10_v48 (c : Dev nD) : W10 m ρ c (Proc.devRef .tc main_v48) = (dat0 (V9 m ρ) c).arrAt 6 cfg0.N :=
  W10_arr m ρ c 6
theorem W20_v94 (c : Dev nD) : W20 m ρ c (Proc.devRef .tc main_v94) = (dat1 (V19 m ρ) c).arrAt 6 cfg1.N :=
  W20_arr m ρ c 6
theorem W21_v95 (c : Dev nD) : W21 m ρ c (Proc.devRef .tc main_v95) = cutRows (W20 m ρ c (Proc.devRef .tc main_v94)) := by
  show StableHlo.after hostOps2 (W20 m ρ c) (Proc.devRef .tc main_v95) = _
  simp only [hostOps2]
  after_results
  rfl

end Cert.KernelIdeal.Thread

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.KOut.lean ====
/-
  The kernel program's result as two layers. A layer's dense stage runs on the node rows with 2400 zero rows
  appended and its output is cut back to the node rows; since row `r` of the stage's output depends on row `r` of its
  inputs only, and an appended array agrees with the original on the node rows, the cut output is the layer function
  of the original arrays. Twice over: the second layer starts from the first layer's result.
-/
import proofs.«423142_j35880156791097_2_alg».proof.Proof.KArr
import proofs.«423142_j35880156791097_2_alg».proof.Proof.KThread
import proofs.«423142_j35880156791097_2_alg».proof.Proof.KVal
import proofs.«423142_j35880156791097_2_alg».proof.Proof.Spec
import proofs.«423142_j35880156791097_2_alg».proof.Proof.LibLayout
import Idealize.ShloMosaic.Lib.KernelVsHost
import Idealize.ShloMosaic.Lib.ValueLayout

set_option maxRecDepth 16384

noncomputable section

namespace Cert.KernelIdeal.OutValue

open Idealize.ShloMosaic Idealize.ShloMosaic.TcCoe Idealize.ShloMosaic.ValueIdx Idealize.SL.Sem
open Cert.KernelIdeal Cert.KernelIdeal.Gen Cert.KernelIdeal.HostValue Cert.TagConv

variable [Facts]

/-- Node row `r` among the 102400 rows of an appended array. -/
abbrev up (r : Fin 100000) : Fin 102400 := ⟨r.val, Nat.lt_of_lt_of_le r.isLt (by decide)⟩

section Layout
variable {F : FTy → Type} [FloatOps F]

/-- An appended array agrees with the original on the node rows. -/
theorem padRows_apply (x : FVec F S100000x64 .f32) (r : Fin 100000) (k : Fin 64) :
    padRows x (ix2 (up r) k) = x (ix2 r k) := by
  unfold padRows
  refine pad_apply_of_inside _ _ _ _ _ _ _ _ _ (fun a => ?_)
  match a with
  | ⟨0, _⟩ => show r.val = 0 + r.val * (0 + 1); omega
  | ⟨1, _⟩ => show k.val = 0 + k.val * (0 + 1); omega

/-- The cut keeps the node rows. -/
theorem cutRows_apply (y : FVec F S102400x64 .f32) (r : Fin 100000) (q : Fin 64) :
    cutRows y (ix2 r q) = y (ix2 (up r) q) := by
  unfold cutRows
  exact slice2_axis0_apply 0 y _ r q (up r) (Nat.zero_add _).symm

/-- The bias as one row, at its column. -/
theorem rowVec_apply (b : FVec F S64 .f32) (n : Fin 64) : rowVec b (ix2 0 n) = b (ix1 n) := by
  unfold rowVec
  exact Cert.Lib.Layout.rowCast_apply b _ 0 n

end Layout

variable (m : (ℓ : Loc nD τ sig) → Buf (Elt Ideal) ℓ) (ρ : Dev nD → PrngReg)

/-- The first layer's result (the first region's output cut back) is the layer function of the launch arrays. -/
theorem mid_eq (c : Dev nD) :
    (Thread.mid m ρ c : Rows.Idx → EReal)
      = layerFn (hop (F := Ideal) (m ((c : Thread nD τ).loc main_arg1)) (m ((c : Thread nD τ).loc main_arg2)))
          (m ((c : Thread nD τ).loc main_arg0)) (m ((c : Thread nD τ).loc main_arg3)) (m ((c : Thread nD τ).loc main_arg4)) := by
  refine eq_layerFn _ _ _ _ _ (fun r q => ?_)
  show cutRows (F := Ideal) (W10 m ρ c (Proc.devRef .tc main_v48)) (ix2 r q) = _
  rw [cutRows_apply, Thread.W10_v48]
  refine (ArrValue.arr0_apply (V9 m ρ) c (up r) q).trans ?_
  rw [Thread.V9_v43, Thread.V9_v44, Thread.V9_v45, Thread.V9_v46, Thread.V9_arg3, Thread.V9_v47]
  simp only [padRows_apply, rowVec_apply]

/-- The program's result (the second region's output cut back) is two layers of the launch arrays. -/
theorem out_eq (c : Dev nD) :
    (W21 m ρ c (Proc.devRef .tc main_v95) : Rows.Idx → EReal)
      = layerFn (hop (F := Ideal) (m ((c : Thread nD τ).loc main_arg1)) (m ((c : Thread nD τ).loc main_arg2)))
          (layerFn (hop (F := Ideal) (m ((c : Thread nD τ).loc main_arg1)) (m ((c : Thread nD τ).loc main_arg2)))
            (m ((c : Thread nD τ).loc main_arg0)) (m ((c : Thread nD τ).loc main_arg3)) (m ((c : Thread nD τ).loc main_arg4)))
          (m ((c : Thread nD τ).loc main_arg5)) (m ((c : Thread nD τ).loc main_arg6)) := by
  refine eq_layerFn _ _ _ _ _ (fun r q => ?_)
  rw [Thread.W21_v95, cutRows_apply, Thread.W20_v94]
  refine (ArrValue.arr1_apply (V19 m ρ) c (up r) q).trans ?_
  rw [Thread.V19_v89, Thread.V19_v90, Thread.V19_v91, Thread.V19_v92, Thread.V19_arg5, Thread.V19_v93, mid_eq]
  simp only [padRows_apply, rowVec_apply]

end Cert.KernelIdeal.OutValue

end
-- ==== Proof.ROps.lean ====
/- GENERATED by `python3 scratch/mkops.py proof/ReferenceIdeal.lean proof/Proof/ROps.lean` (run in the unit directory): the reference's @main as lists of its host operations,
   one list per printed window of @main, in order; each entry is the operation of one printed line, and each call of
   the leaky rectifier is the seven operations of its printed body over that call's buffers. -/
import proofs.«423142_j35880156791097_2_alg».proof.ReferenceIdeal
import Idealize.ShloMosaic.Lib.StableHlo.Run

noncomputable section

namespace Cert.ReferenceIdeal.Ops

open Idealize.ShloMosaic Idealize.ShloMosaic.TcCoe Cert.ReferenceIdeal

variable {F : FTy → Type} [FloatOps F] [Facts]

open Facts₀ Facts

/-- The 60 operations of window 0 of @main. -/
abbrev ops0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.unary main_arg3 main_v4 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v4 main_v5 rfl shapeCasts_S1x64x64_S64x64,
    StableHlo.binary main_arg0 main_v5 main_v6 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v7 (broadcastInDim S1000000x1 ![0] bcast_S1000000_S1000000x1_0 : (⟨S1000000, .f32⟩ : BufTy).Contents (Elt F) → (⟨S1000000x1, .f32⟩ : BufTy).Contents (Elt F)),
    StableHlo.nullary main_c (constantI S_ 32 0#32),
    StableHlo.unary main_c main_v8 (broadcastInDim S1000000 ![] bcast_S_S1000000 : (⟨S_, .i32⟩ : BufTy).Contents (Elt F) → (⟨S1000000, .i32⟩ : BufTy).Contents (Elt F)),
    StableHlo.binary main_v1 main_v8 main_v9 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v10 (broadcastInDim S1000000 ![] bcast_S_S1000000 : (⟨S_, .i32⟩ : BufTy).Contents (Elt F) → (⟨S1000000, .i32⟩ : BufTy).Contents (Elt F)),
    StableHlo.binary main_v1 main_v10 main_v11 (addi : (⟨S1000000, .i32⟩ : BufTy).Contents (Elt F) → (⟨S1000000, .i32⟩ : BufTy).Contents (Elt F) → (⟨S1000000, .i32⟩ : BufTy).Contents (Elt F)),
    StableHlo.ternary main_v9 main_v11 main_v1 main_v12 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v12 main_v13 (broadcastInDim S1000000x1 ![0] bcast_S1000000_S1000000x1_0 : (⟨S1000000, .i32⟩ : BufTy).Contents (Elt F) → (⟨S1000000x1, .i32⟩ : BufTy).Contents (Elt F)),
    StableHlo.binary main_arg0 main_v13 main_v14 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v7 main_v15 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v15 main_v14 main_v16 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v17 (broadcastInDim S100000x64 ![] bcast_S_S100000x64 : (⟨S_, .f32⟩ : BufTy).Contents (Elt F) → (⟨S100000x64, .f32⟩ : BufTy).Contents (Elt F)),
    StableHlo.unary main_v3 main_v18 (broadcastInDim S1000000x1 ![0] bcast_S1000000_S1000000x1_0 : (⟨S1000000, .i32⟩ : BufTy).Contents (Elt F) → (⟨S1000000x1, .i32⟩ : BufTy).Contents (Elt F)),
    StableHlo.ternary main_v17 main_v18 main_v16 main_v19 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg3 main_v20 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v20 main_v21 rfl shapeCasts_S1x64x64_S64x64,
    StableHlo.binary main_v19 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v6 main_v22 main_v23 (addf : (⟨S100000x64, .f32⟩ : BufTy).Contents (Elt F) → (⟨S100000x64, .f32⟩ : BufTy).Contents (Elt F) → (⟨S100000x64, .f32⟩ : BufTy).Contents (Elt F)),
    StableHlo.unary main_arg2 main_v24 (broadcastInDim S1000000x1 ![0] bcast_S1000000_S1000000x1_0 : (⟨S1000000, .f32⟩ : BufTy).Contents (Elt F) → (⟨S1000000x1, .f32⟩ : BufTy).Contents (Elt F)),
    StableHlo.nullary main_c_1 (constantI S_ 32 0#32),
    StableHlo.unary main_c_1 main_v25 (broadcastInDim S1000000 ![] bcast_S_S1000000 : (⟨S_, .i32⟩ : BufTy).Contents (Elt F) → (⟨S1000000, .i32⟩ : BufTy).Contents (Elt F)),
    StableHlo.binary main_v1 main_v25 main_v26 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v27 (broadcastInDim S1000000 ![] bcast_S_S1000000 : (⟨S_, .i32⟩ : BufTy).Contents (Elt F) → (⟨S1000000, .i32⟩ : BufTy).Contents (Elt F)),
    StableHlo.binary main_v1 main_v27 main_v28 (addi : (⟨S1000000, .i32⟩ : BufTy).Contents (Elt F) → (⟨S1000000, .i32⟩ : BufTy).Contents (Elt F) → (⟨S1000000, .i32⟩ : BufTy).Contents (Elt F)),
    StableHlo.ternary main_v26 main_v28 main_v1 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v29 main_v30 (broadcastInDim S1000000x1 ![0] bcast_S1000000_S1000000x1_0 : (⟨S1000000, .i32⟩ : BufTy).Contents (Elt F) → (⟨S1000000x1, .i32⟩ : BufTy).Contents (Elt F)),
    StableHlo.binary main_v19 main_v30 main_v31 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v24 main_v32 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v32 main_v31 main_v33 (mulf : (⟨S1000000x64, .f32⟩ : BufTy).Contents (Elt F) → (⟨S1000000x64, .f32⟩ : BufTy).Contents (Elt F) → (⟨S1000000x64, .f32⟩ : BufTy).Contents (Elt F)),
    StableHlo.nullary main_cst_3 (constant S_ .f32 0x00000000#32),
    StableHlo.unary main_cst_3 main_v34 (broadcastInDim S100000x64 ![] bcast_S_S100000x64 : (⟨S_, .f32⟩ : BufTy).Contents (Elt F) → (⟨S100000x64, .f32⟩ : BufTy).Contents (Elt F)),
    StableHlo.unary main_v3 main_v35 (broadcastInDim S1000000x1 ![0] bcast_S1000000_S1000000x1_0 : (⟨S1000000, .i32⟩ : BufTy).Contents (Elt F) → (⟨S1000000x1, .i32⟩ : BufTy).Contents (Elt F)),
    StableHlo.ternary main_v34 main_v35 main_v33 main_v36 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg3 main_v37 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v37 main_v38 rfl shapeCasts_S1x64x64_S64x64,
    StableHlo.binary main_v36 main_v38 main_v39 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v23 main_v39 main_v40 (addf : (⟨S100000x64, .f32⟩ : BufTy).Contents (Elt F) → (⟨S100000x64, .f32⟩ : BufTy).Contents (Elt F) → (⟨S100000x64, .f32⟩ : BufTy).Contents (Elt F)),
    StableHlo.unary main_arg2 main_v41 (broadcastInDim S1000000x1 ![0] bcast_S1000000_S1000000x1_0 : (⟨S1000000, .f32⟩ : BufTy).Contents (Elt F) → (⟨S1000000x1, .f32⟩ : BufTy).Contents (Elt F)),
    StableHlo.nullary main_c_4 (constantI S_ 32 0#32),
    StableHlo.unary main_c_4 main_v42 (broadcastInDim S1000000 ![] bcast_S_S1000000 : (⟨S_, .i32⟩ : BufTy).Contents (Elt F) → (⟨S1000000, .i32⟩ : BufTy).Contents (Elt F)),
    StableHlo.binary main_v1 main_v42 main_v43 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v44 (broadcastInDim S1000000 ![] bcast_S_S1000000 : (⟨S_, .i32⟩ : BufTy).Contents (Elt F) → (⟨S1000000, .i32⟩ : BufTy).Contents (Elt F)),
    StableHlo.binary main_v1 main_v44 main_v45 (addi : (⟨S1000000, .i32⟩ : BufTy).Contents (Elt F) → (⟨S1000000, .i32⟩ : BufTy).Contents (Elt F) → (⟨S1000000, .i32⟩ : BufTy).Contents (Elt F)),
    StableHlo.ternary main_v43 main_v45 main_v1 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v46 main_v47 (broadcastInDim S1000000x1 ![0] bcast_S1000000_S1000000x1_0 : (⟨S1000000, .i32⟩ : BufTy).Contents (Elt F) → (⟨S1000000x1, .i32⟩ : BufTy).Contents (Elt F)),
    StableHlo.binary main_v36 main_v47 main_v48 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v41 main_v49 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v49 main_v48 main_v50 (mulf : (⟨S1000000x64, .f32⟩ : BufTy).Contents (Elt F) → (⟨S1000000x64, .f32⟩ : BufTy).Contents (Elt F) → (⟨S1000000x64, .f32⟩ : BufTy).Contents (Elt F)),
    StableHlo.nullary main_cst_6 (constant S_ .f32 0x00000000#32) ]

/-- The 66 operations of window 1 of @main. -/
abbrev ops1 : List (HloOp τ sig (Elt F)) :=
  [ StableHlo.unary main_cst_6 main_v51 (broadcastInDim S100000x64 ![] bcast_S_S100000x64 : (⟨S_, .f32⟩ : BufTy).Contents (Elt F) → (⟨S100000x64, .f32⟩ : BufTy).Contents (Elt F)),
    StableHlo.unary main_v3 main_v52 (broadcastInDim S1000000x1 ![0] bcast_S1000000_S1000000x1_0 : (⟨S1000000, .i32⟩ : BufTy).Contents (Elt F) → (⟨S1000000x1, .i32⟩ : BufTy).Contents (Elt F)),
    StableHlo.ternary main_v51 main_v52 main_v50 main_v53 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg3 main_v54 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v54 main_v55 rfl shapeCasts_S1x64x64_S64x64,
    StableHlo.binary main_v53 main_v55 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v40 main_v56 main_v57 (addf : (⟨S100000x64, .f32⟩ : BufTy).Contents (Elt F) → (⟨S100000x64, .f32⟩ : BufTy).Contents (Elt F) → (⟨S100000x64, .f32⟩ : BufTy).Contents (Elt F)),
    StableHlo.unary main_arg4 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S100000x64 ![0, 1] bcast_S1x64_S100000x64_0_1 : (⟨S1x64, .f32⟩ : BufTy).Contents (Elt F) → (⟨S100000x64, .f32⟩ : BufTy).Contents (Elt F)),
    StableHlo.binary main_v57 main_v59 main_v60 (addf : (⟨S100000x64, .f32⟩ : BufTy).Contents (Elt F) → (⟨S100000x64, .f32⟩ : BufTy).Contents (Elt F) → (⟨S100000x64, .f32⟩ : BufTy).Contents (Elt F)),
    StableHlo.binary main_v60 main_arg0 main_v61 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v61 : StableHlo.TRef sig ⟨S100000x64, .f32⟩) main_call0.v0 main_call0.v1 (cmpf .oge),
    StableHlo.TRef.nullary main_call0.cst_0 (constant S_ .f32 0x3C23D70A#32),
    StableHlo.TRef.unary main_call0.cst_0 main_call0.v2 (broadcastInDim S100000x64 ![] bcast_S_S100000x64),
    StableHlo.TRef.binary main_call0.v2 (.of main_v61 : StableHlo.TRef sig ⟨S100000x64, .f32⟩) main_call0.v3 mulf,
    StableHlo.TRef.ternary main_call0.v1 (.of main_v61 : StableHlo.TRef sig ⟨S100000x64, .f32⟩) main_call0.v3 main_call0.call0.v0 select,
    StableHlo.unary main_arg5 main_v63 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v63 main_v64 rfl shapeCasts_S1x64x64_S64x64,
    StableHlo.binary main_v62 main_v64 main_v65 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg2 main_v66 (broadcastInDim S1000000x1 ![0] bcast_S1000000_S1000000x1_0 : (⟨S1000000, .f32⟩ : BufTy).Contents (Elt F) → (⟨S1000000x1, .f32⟩ : BufTy).Contents (Elt F)),
    StableHlo.nullary main_c_7 (constantI S_ 32 0#32),
    StableHlo.unary main_c_7 main_v67 (broadcastInDim S1000000 ![] bcast_S_S1000000 : (⟨S_, .i32⟩ : BufTy).Contents (Elt F) → (⟨S1000000, .i32⟩ : BufTy).Contents (Elt F)),
    StableHlo.binary main_v1 main_v67 main_v68 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v69 (broadcastInDim S1000000 ![] bcast_S_S1000000 : (⟨S_, .i32⟩ : BufTy).Contents (Elt F) → (⟨S1000000, .i32⟩ : BufTy).Contents (Elt F)),
    StableHlo.binary main_v1 main_v69 main_v70 (addi : (⟨S1000000, .i32⟩ : BufTy).Contents (Elt F) → (⟨S1000000, .i32⟩ : BufTy).Contents (Elt F) → (⟨S1000000, .i32⟩ : BufTy).Contents (Elt F)),
    StableHlo.ternary main_v68 main_v70 main_v1 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v71 main_v72 (broadcastInDim S1000000x1 ![0] bcast_S1000000_S1000000x1_0 : (⟨S1000000, .i32⟩ : BufTy).Contents (Elt F) → (⟨S1000000x1, .i32⟩ : BufTy).Contents (Elt F)),
    StableHlo.binary main_v62 main_v72 main_v73 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v66 main_v74 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v74 main_v73 main_v75 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v76 (broadcastInDim S100000x64 ![] bcast_S_S100000x64 : (⟨S_, .f32⟩ : BufTy).Contents (Elt F) → (⟨S100000x64, .f32⟩ : BufTy).Contents (Elt F)),
    StableHlo.unary main_v3 main_v77 (broadcastInDim S1000000x1 ![0] bcast_S1000000_S1000000x1_0 : (⟨S1000000, .i32⟩ : BufTy).Contents (Elt F) → (⟨S1000000x1, .i32⟩ : BufTy).Contents (Elt F)),
    StableHlo.ternary main_v76 main_v77 main_v75 main_v78 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg5 main_v79 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v79 main_v80 rfl shapeCasts_S1x64x64_S64x64,
    StableHlo.binary main_v78 main_v80 main_v81 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v65 main_v81 main_v82 (addf : (⟨S100000x64, .f32⟩ : BufTy).Contents (Elt F) → (⟨S100000x64, .f32⟩ : BufTy).Contents (Elt F) → (⟨S100000x64, .f32⟩ : BufTy).Contents (Elt F)),
    StableHlo.unary main_arg2 main_v83 (broadcastInDim S1000000x1 ![0] bcast_S1000000_S1000000x1_0 : (⟨S1000000, .f32⟩ : BufTy).Contents (Elt F) → (⟨S1000000x1, .f32⟩ : BufTy).Contents (Elt F)),
    StableHlo.nullary main_c_10 (constantI S_ 32 0#32),
    StableHlo.unary main_c_10 main_v84 (broadcastInDim S1000000 ![] bcast_S_S1000000 : (⟨S_, .i32⟩ : BufTy).Contents (Elt F) → (⟨S1000000, .i32⟩ : BufTy).Contents (Elt F)),
    StableHlo.binary main_v1 main_v84 main_v85 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 100000#32),
    StableHlo.unary main_c_11 main_v86 (broadcastInDim S1000000 ![] bcast_S_S1000000 : (⟨S_, .i32⟩ : BufTy).Contents (Elt F) → (⟨S1000000, .i32⟩ : BufTy).Contents (Elt F)),
    StableHlo.binary main_v1 main_v86 main_v87 (addi : (⟨S1000000, .i32⟩ : BufTy).Contents (Elt F) → (⟨S1000000, .i32⟩ : BufTy).Contents (Elt F) → (⟨S1000000, .i32⟩ : BufTy).Contents (Elt F)),
    StableHlo.ternary main_v85 main_v87 main_v1 main_v88 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v88 main_v89 (broadcastInDim S1000000x1 ![0] bcast_S1000000_S1000000x1_0 : (⟨S1000000, .i32⟩ : BufTy).Contents (Elt F) → (⟨S1000000x1, .i32⟩ : BufTy).Contents (Elt F)),
    StableHlo.binary main_v78 main_v89 main_v90 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v83 main_v91 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v91 main_v90 main_v92 (mulf : (⟨S1000000x64, .f32⟩ : BufTy).Contents (Elt F) → (⟨S1000000x64, .f32⟩ : BufTy).Contents (Elt F) → (⟨S1000000x64, .f32⟩ : BufTy).Contents (Elt F)),
    StableHlo.nullary main_cst_12 (constant S_ .f32 0x00000000#32),
    StableHlo.unary main_cst_12 main_v93 (broadcastInDim S100000x64 ![] bcast_S_S100000x64 : (⟨S_, .f32⟩ : BufTy).Contents (Elt F) → (⟨S100000x64, .f32⟩ : BufTy).Contents (Elt F)),
    StableHlo.unary main_v3 main_v94 (broadcastInDim S1000000x1 ![0] bcast_S1000000_S1000000x1_0 : (⟨S1000000, .i32⟩ : BufTy).Contents (Elt F) → (⟨S1000000x1, .i32⟩ : BufTy).Contents (Elt F)),
    StableHlo.ternary main_v93 main_v94 main_v92 main_v95 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg5 main_v96 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v96 main_v97 rfl shapeCasts_S1x64x64_S64x64,
    StableHlo.binary main_v95 main_v97 main_v98 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v82 main_v98 main_v99 (addf : (⟨S100000x64, .f32⟩ : BufTy).Contents (Elt F) → (⟨S100000x64, .f32⟩ : BufTy).Contents (Elt F) → (⟨S100000x64, .f32⟩ : BufTy).Contents (Elt F)),
    StableHlo.unary main_arg2 main_v100 (broadcastInDim S1000000x1 ![0] bcast_S1000000_S1000000x1_0 : (⟨S1000000, .f32⟩ : BufTy).Contents (Elt F) → (⟨S1000000x1, .f32⟩ : BufTy).Contents (Elt F)),
    StableHlo.nullary main_c_13 (constantI S_ 32 0#32),
    StableHlo.unary main_c_13 main_v101 (broadcastInDim S1000000 ![] bcast_S_S1000000 : (⟨S_, .i32⟩ : BufTy).Contents (Elt F) → (⟨S1000000, .i32⟩ : BufTy).Contents (Elt F)),
    StableHlo.binary main_v1 main_v101 main_v102 (cmpi .slt : (⟨S1000000, .i32⟩ : BufTy).Contents (Elt F) → (⟨S1000000, .i32⟩ : BufTy).Contents (Elt F) → (⟨S1000000, .i1⟩ : BufTy).Contents (Elt F)),
    StableHlo.nullary main_c_14 (constantI S_ 32 100000#32) ]

/-- The 26 operations of window 2 of @main. -/
abbrev ops2 : List (HloOp τ sig (Elt F)) :=
  [ StableHlo.unary main_c_14 main_v103 (broadcastInDim S1000000 ![] bcast_S_S1000000 : (⟨S_, .i32⟩ : BufTy).Contents (Elt F) → (⟨S1000000, .i32⟩ : BufTy).Contents (Elt F)),
    StableHlo.binary main_v1 main_v103 main_v104 (addi : (⟨S1000000, .i32⟩ : BufTy).Contents (Elt F) → (⟨S1000000, .i32⟩ : BufTy).Contents (Elt F) → (⟨S1000000, .i32⟩ : BufTy).Contents (Elt F)),
    StableHlo.ternary main_v102 main_v104 main_v1 main_v105 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v105 main_v106 (broadcastInDim S1000000x1 ![0] bcast_S1000000_S1000000x1_0 : (⟨S1000000, .i32⟩ : BufTy).Contents (Elt F) → (⟨S1000000x1, .i32⟩ : BufTy).Contents (Elt F)),
    StableHlo.binary main_v95 main_v106 main_v107 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v100 main_v108 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v108 main_v107 main_v109 (mulf : (⟨S1000000x64, .f32⟩ : BufTy).Contents (Elt F) → (⟨S1000000x64, .f32⟩ : BufTy).Contents (Elt F) → (⟨S1000000x64, .f32⟩ : BufTy).Contents (Elt F)),
    StableHlo.nullary main_cst_15 (constant S_ .f32 0x00000000#32),
    StableHlo.unary main_cst_15 main_v110 (broadcastInDim S100000x64 ![] bcast_S_S100000x64 : (⟨S_, .f32⟩ : BufTy).Contents (Elt F) → (⟨S100000x64, .f32⟩ : BufTy).Contents (Elt F)),
    StableHlo.unary main_v3 main_v111 (broadcastInDim S1000000x1 ![0] bcast_S1000000_S1000000x1_0 : (⟨S1000000, .i32⟩ : BufTy).Contents (Elt F) → (⟨S1000000x1, .i32⟩ : BufTy).Contents (Elt F)),
    StableHlo.ternary main_v110 main_v111 main_v109 main_v112 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg5 main_v113 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v113 main_v114 rfl shapeCasts_S1x64x64_S64x64,
    StableHlo.binary main_v112 main_v114 main_v115 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v99 main_v115 main_v116 (addf : (⟨S100000x64, .f32⟩ : BufTy).Contents (Elt F) → (⟨S100000x64, .f32⟩ : BufTy).Contents (Elt F) → (⟨S100000x64, .f32⟩ : BufTy).Contents (Elt F)),
    StableHlo.unary main_arg6 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v118 main_v119 (addf : (⟨S100000x64, .f32⟩ : BufTy).Contents (Elt F) → (⟨S100000x64, .f32⟩ : BufTy).Contents (Elt F) → (⟨S100000x64, .f32⟩ : BufTy).Contents (Elt F)),
    StableHlo.binary main_v119 main_v62 main_v120 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v120 : StableHlo.TRef sig ⟨S100000x64, .f32⟩) main_call1.v0 main_call1.v1 (cmpf .oge),
    StableHlo.TRef.nullary main_call1.cst_0 (constant S_ .f32 0x3C23D70A#32),
    StableHlo.TRef.unary main_call1.cst_0 main_call1.v2 (broadcastInDim S100000x64 ![] bcast_S_S100000x64),
    StableHlo.TRef.binary main_call1.v2 (.of main_v120 : StableHlo.TRef sig ⟨S100000x64, .f32⟩) main_call1.v3 mulf,
    StableHlo.TRef.ternary main_call1.v1 (.of main_v120 : StableHlo.TRef sig ⟨S100000x64, .f32⟩) main_call1.v3 main_call1.call0.v0 select ]

/-- @main's operations, in order. -/
abbrev ops : List (HloOp τ sig (Elt F)) := ops0 ++ (ops1 ++ ops2)

end Cert.ReferenceIdeal.Ops

end
-- ==== Proof.RRun.lean ====
/-
  The reference's run: @main is the straight line of its host operations (the two calls of the leaky rectifier
  unfolded at their call sites), so every weakly fair execution terminates with each buffer at the fold of those
  operations over the launch memory.
-/
import proofs.«423142_j35880156791097_2_alg».proof.Proof.ROps
import proofs.«423142_j35880156791097_2_alg».proof.Proof.Gen.ReferenceIdeal
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Ops

variable {F : FTy → Type} [FloatOps F] [Facts]

/-! ## Each printed window is the line of its operations

A window of @main is a chain of host steps; a call of the leaky rectifier is its body's six steps and the
select of the call inside it, each followed by the return of nothing, which the sequencing absorbs. So each
window unfolds to the chain that `seq` builds from the window's list, by computation. -/

set_option maxRecDepth 4096 in
/-- Statements 1 to 60 of @main. -/
theorem part0_eq (c : Dev nD) : main_part0 (F := F) c = seq (ops0 (F := F)) := rfl

set_option maxRecDepth 4096 in
/-- Statements 61 to 120 of @main, the first call of the leaky rectifier unfolded where it stands. -/
theorem part1_eq (c : Dev nD) : main_part1 (F := F) c = seq (ops1 (F := F)) := rfl

set_option maxRecDepth 4096 in
/-- Statements 121 to 141 of @main, the second call of the leaky rectifier unfolded where it stands. -/
theorem part2_eq (c : Dev nD) : main_part2 (F := F) c = seq (ops2 (F := F)) := rfl

/-- @main is its operations in order. -/
theorem main_eq (c : Dev nD) : main (F := F) c = seq (ops (F := F)) := by
  show (main_part0 (F := F) c >>= fun _ => main_part1 (F := F) c >>= fun _ => main_part2 (F := F) c) = seq (ops0 ++ (ops1 ++ ops2))
  rw [seq_append, seq_append, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

/-! ## What the operations touch

Every builder's operation reads and writes the TensorCore references it is given and nothing else, and it
determines its result (none allocates). Both facts are stated window by window, one component per
operation in the window's order, and joined over the concatenation. -/

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..⟩

theorem ops1_sub : (ops1 : List (HloOp τ sig (Elt F))).Forall fun op => op.bufs ⊆ tcRefs τ sig :=
  ⟨unary_bufs_sub .., unary_bufs_sub .., ternary_bufs_sub .., unary_bufs_sub .., reshape_bufs_sub .., binary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., reshape_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., reshape_bufs_sub .., binary_bufs_sub ..,
    binary_bufs_sub .., unary_bufs_sub .., nullary_bufs_sub .., unary_bufs_sub .., binary_bufs_sub .., nullary_bufs_sub ..⟩

theorem ops2_sub : (ops2 : List (HloOp τ sig (Elt F))).Forall fun op => op.bufs ⊆ tcRefs τ sig :=
  ⟨unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub ..⟩

/-- Every operation touches TensorCore buffers only. -/
theorem ops_sub : (ops : List (HloOp τ sig (Elt F))).Forall fun op => op.bufs ⊆ tcRefs τ sig :=
  List.forall_append.2 ⟨ops0_sub, List.forall_append.2 ⟨ops1_sub, ops2_sub⟩⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl⟩

/-- No operation allocates: each determines its results. -/
theorem ops_fresh : ∀ op ∈ (ops : List (HloOp τ sig (Elt F))), op.fresh = ∅ :=
  List.forall_iff_forall_mem.1 (List.forall_append.2 ⟨ops0_fresh, List.forall_append.2 ⟨ops1_fresh, ops2_fresh⟩⟩)

/-- From any memory with zero counters every weakly fair execution of @main terminates, each buffer ending at the
    fold of @main's operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Run

end
-- ==== Proof.RVal.lean ====
/-
  The reference program, as functions of arrays: the adjacency operator `hop` (the same operations as the
  kernel's program applies on its host side) and one layer's dense stage `layerTerm`: four matrix products with
  the slices of the weights, summed from the left, the bias spread down the rows, the residual, the leaky rectifier.
-/
import proofs.«423142_j35880156791097_2_alg».proof.ReferenceIdeal

noncomputable section

namespace Cert.ReferenceIdeal.HostValue

open Idealize.ShloMosaic Cert.ReferenceIdeal

variable {F : FTy → Type} [FloatOps F] [Facts]

open Facts₀ Facts

/-- The edges' source nodes, as gather indices: row 0 of the edge list, a negative entry wrapped once by the node
    count, one index per edge. -/
def srcIx (e : IVec S2x1000000 32) : IVec S1000000x1 32 :=
  broadcastInDim S1000000x1 ![0] bcast_S1000000_S1000000x1_0
    (select
      (cmpi .slt (shapeCast S1000000 (extractStridedSlice S1x1000000 ![0, 0] e slices_S2x1000000_S1x1000000_0_0) shapeCasts_S1x1000000_S1000000)
        (broadcastInDim S1000000 ![] bcast_S_S1000000 (constantI S_ 32 0#32)))
      (addi (shapeCast S1000000 (extractStridedSlice S1x1000000 ![0, 0] e slices_S2x1000000_S1x1000000_0_0) shapeCasts_S1x1000000_S1000000)
        (broadcastInDim S1000000 ![] bcast_S_S1000000 (constantI S_ 32 100000#32)))
      (shapeCast S1000000 (extractStridedSlice S1x1000000 ![0, 0] e slices_S2x1000000_S1x1000000_0_0) shapeCasts_S1x1000000_S1000000))

/-- The edges' destination nodes, as scatter indices: row 1 of the edge list, one index per edge. -/
def dstIx (e : IVec S2x1000000 32) : IVec S1000000x1 32 :=
  broadcastInDim S1000000x1 ![0] bcast_S1000000_S1000000x1_0
    (shapeCast S1000000 (extractStridedSlice S1x1000000 ![1, 0] e slices_S2x1000000_S1x1000000_1_0) shapeCasts_S1x1000000_S1000000)

/-- The weighted adjacency operator: node `i`'s row is the sum, over the edges into `i`, of the edge's weight times
    its source node's row (a row gather, a product with the weights spread along each row, a scatter-add into zeros). -/
def hop (e : IVec S2x1000000 32) (ew : FVec F S1000000 .f32) (h : FVec F S100000x64 .f32) : FVec F S100000x64 .f32 :=
  Host.scatterAdd scatter_S100000x64_S1000000x1_S1000000x64_1_0_0_1
    (broadcastInDim S100000x64 ![] bcast_S_S100000x64 (constant S_ .f32 0x00000000#32))
    (dstIx e)
    (mulf (broadcastInDim S1000000x64 ![0, 1] bcast_S1000000x1_S1000000x64_0_1 (broadcastInDim S1000000x1 ![0] bcast_S1000000_S1000000x1_0 ew))
      (Host.gather gather_S100000x64_S1000000x1_S1000000x64_1_0_n_n_0_1_164 h (srcIx e)))

/-- Weight matrix `j` of a layer: one 64×64 slice of the stack of four. -/
def wt0 (W : FVec F S4x64x64 .f32) : FVec F S64x64 .f32 :=
  shapeCast S64x64 (extractStridedSlice S1x64x64 ![0, 0, 0] W slices_S4x64x64_S1x64x64_0_0_0) shapeCasts_S1x64x64_S64x64
def wt1 (W : FVec F S4x64x64 .f32) : FVec F S64x64 .f32 :=
  shapeCast S64x64 (extractStridedSlice S1x64x64 ![1, 0, 0] W slices_S4x64x64_S1x64x64_1_0_0) shapeCasts_S1x64x64_S64x64
def wt2 (W : FVec F S4x64x64 .f32) : FVec F S64x64 .f32 :=
  shapeCast S64x64 (extractStridedSlice S1x64x64 ![2, 0, 0] W slices_S4x64x64_S1x64x64_2_0_0) shapeCasts_S1x64x64_S64x64
def wt3 (W : FVec F S4x64x64 .f32) : FVec F S64x64 .f32 :=
  shapeCast S64x64 (extractStridedSlice S1x64x64 ![3, 0, 0] W slices_S4x64x64_S1x64x64_3_0_0) shapeCasts_S1x64x64_S64x64

/-- A product of the node rows with one weight matrix. -/
def prod (x : FVec F S100000x64 .f32) (w : FVec F S64x64 .f32) : FVec F S100000x64 .f32 :=
  Host.dotGeneral dot_S100000x64_S64x64_S100000x64_1_0_0_1_n_n none x w

/-- What a layer adds up before the rectifier: the four products from the left, the bias down the rows, the input. -/
def preAct (x h1 h2 h3 : FVec F S100000x64 .f32) (W : FVec F S4x64x64 .f32) (b : FVec F S64 .f32) : FVec F S100000x64 .f32 :=
  addf (addf (addf (addf (addf (prod x (wt0 W)) (prod h1 (wt1 W))) (prod h2 (wt2 W))) (prod h3 (wt3 W)))
    (broadcastInDim S100000x64 ![0, 1] bcast_S1x64_S100000x64_0_1 (broadcastInDim S1x64 ![1] bcast_S64_S1x64_1 b))) x

/-- The leaky rectifier on a whole array. -/
def leaky (v : FVec F S100000x64 .f32) : FVec F S100000x64 .f32 :=
  select (cmpf .oge v (broadcastInDim S100000x64 ![] bcast_S_S100000x64 (constant S_ .f32 0x00000000#32))) v
    (mulf (broadcastInDim S100000x64 ![] bcast_S_S100000x64 (constant S_ .f32 0x3C23D70A#32)) v)

/-- One layer of the reference on the node features `x`. -/
def layerTerm (e : IVec S2x1000000 32) (ew : FVec F S1000000 .f32) (x : FVec F S100000x64 .f32) (W : FVec F S4x64x64 .f32)
    (b : FVec F S64 .f32) : FVec F S100000x64 .f32 :=
  leaky (preAct x (hop e ew x) (hop e ew (hop e ew x)) (hop e ew (hop e ew (hop e ew x))) W b)

/-- The reference's result: two layers. -/
def out (y : FVec F S100000x64 .f32) (e : IVec S2x1000000 32) (ew : FVec F S1000000 .f32) (W1 : FVec F S4x64x64 .f32)
    (b1 : FVec F S64 .f32) (W2 : FVec F S4x64x64 .f32) (b2 : FVec F S64 .f32) : FVec F S100000x64 .f32 :=
  layerTerm e ew (layerTerm e ew y W1 b1) W2 b2

end Cert.ReferenceIdeal.HostValue

end
-- ==== Proof.RThread.lean ====
/-
  The fold of the reference's operations read at its result and at its arguments: the result buffer holds two
  layers (`HostValue.out`) of the launch contents, and no operation writes an argument.
-/
import proofs.«423142_j35880156791097_2_alg».proof.Proof.ROps
import proofs.«423142_j35880156791097_2_alg».proof.Proof.RVal
import Idealize.ShloMosaic.Lib.StableHlo.Run

noncomputable section

namespace Cert.ReferenceIdeal.Thread

open Idealize.ShloMosaic Idealize.ShloMosaic.TcCoe Idealize.SL.Sem Idealize.ShloMosaic.StableHlo
open Cert.ReferenceIdeal Cert.ReferenceIdeal.Ops Cert.ReferenceIdeal.HostValue

variable {F : FTy → Type} [FloatOps F] [Facts]

/- Reading the fold at the result buffer: every operation writes one buffer of its own, so the contents read at a
   buffer are the function of the operation that writes it, applied to the contents read at its operands, and so on
   back to the arguments, which no operation writes. Composed in order, the operations of one layer are the three
   applications of the adjacency operator (each a row gather at the wrapped source indices, the product with the
   edge weights spread along the rows, the scatter-add into zeros at the destination indices), the four products
   with the slices of the weights summed from the left, the bias spread down the rows, the residual and the leaky
   rectifier (its seven operations over that call's buffers, whose contents are carried at the buffers' own types,
   the identity here): `layerTerm`, term for term. The second layer reads the first one's result, hence `out`.
   The gather and the scatter-add stay folded: the equation never looks inside them. -/
attribute [local irreducible] Host.gather Host.scatterAdd in
set_option maxRecDepth 16384 in
set_option maxHeartbeats 4000000 in
/-- The result: two layers of the arguments. -/
theorem after_out (V : Valuation τ sig (Elt F)) :
    after ops V (Proc.devRef .tc main_v121)
      = out (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  simp only [ops, ops0, ops1, ops2, List.cons_append, List.nil_append]
  after_results_simp
  simp only [TRef.ofBuf, TRef.toBuf, cast_eq]
  rfl

/-! The arguments: each operation leaves every buffer but its own result as it was, and no argument is a result. -/

set_option maxRecDepth 8192 in
/-- No operation writes the node features: the buffer keeps its launch contents. -/
theorem after_arg0 (V : Valuation τ sig (Elt F)) : after ops V (Proc.devRef .tc main_arg0) = V (Proc.devRef .tc main_arg0) := by
  simp only [ops, ops0, ops1, ops2, List.cons_append, List.nil_append]
  after_results_simp
set_option maxRecDepth 8192 in
/-- No operation writes the edge list. -/
theorem after_arg1 (V : Valuation τ sig (Elt F)) : after ops V (Proc.devRef .tc main_arg1) = V (Proc.devRef .tc main_arg1) := by
  simp only [ops, ops0, ops1, ops2, List.cons_append, List.nil_append]
  after_results_simp
set_option maxRecDepth 8192 in
/-- No operation writes the edge weights. -/
theorem after_arg2 (V : Valuation τ sig (Elt F)) : after ops V (Proc.devRef .tc main_arg2) = V (Proc.devRef .tc main_arg2) := by
  simp only [ops, ops0, ops1, ops2, List.cons_append, List.nil_append]
  after_results_simp
set_option maxRecDepth 8192 in
/-- No operation writes the first layer's weights. -/
theorem after_arg3 (V : Valuation τ sig (Elt F)) : after ops V (Proc.devRef .tc main_arg3) = V (Proc.devRef .tc main_arg3) := by
  simp only [ops, ops0, ops1, ops2, List.cons_append, List.nil_append]
  after_results_simp
set_option maxRecDepth 8192 in
/-- No operation writes the first layer's bias. -/
theorem after_arg4 (V : Valuation τ sig (Elt F)) : after ops V (Proc.devRef .tc main_arg4) = V (Proc.devRef .tc main_arg4) := by
  simp only [ops, ops0, ops1, ops2, List.cons_append, List.nil_append]
  after_results_simp
set_option maxRecDepth 8192 in
/-- No operation writes the second layer's weights. -/
theorem after_arg5 (V : Valuation τ sig (Elt F)) : after ops V (Proc.devRef .tc main_arg5) = V (Proc.devRef .tc main_arg5) := by
  simp only [ops, ops0, ops1, ops2, List.cons_append, List.nil_append]
  after_results_simp
set_option maxRecDepth 8192 in
/-- No operation writes the second layer's bias. -/
theorem after_arg6 (V : Valuation τ sig (Elt F)) : after ops V (Proc.devRef .tc main_arg6) = V (Proc.devRef .tc main_arg6) := by
  simp only [ops, ops0, ops1, ops2, List.cons_append, List.nil_append]
  after_results_simp

end Cert.ReferenceIdeal.Thread

end
-- ==== Proof.RLayer.lean ====
/-
  One layer of the reference read at an entry: `leaky (preAct …)` at row `r`, column `q` is `rowCombine` of row `r`
  of `x, h1, h2, h3`. Each product with a slice of the weights is a plain sum over the 64 columns; the bias spread
  down the rows is the bias at the column.
-/
import proofs.«423142_j35880156791097_2_alg».proof.Proof.RVal
import proofs.«423142_j35880156791097_2_alg».proof.Proof.Spec
import proofs.«423142_j35880156791097_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LayerValue

open Idealize.ShloMosaic Idealize.ShloMosaic.ValueIdx Cert.ReferenceIdeal Cert.ReferenceIdeal.HostValue Cert.TagConv

variable [Facts]

open Facts₀ Facts

/-- A product of the rows with a 64×64 matrix, at entry `(r, q)`: the sum over the 64 columns of the row times the
    matrix's column `q`. The program's dimension numbers are the plain ones (contract the left operand's axis 1 with the
    right operand's axis 0, no batch axis). -/
theorem prod_apply (x : FVec Ideal S100000x64 .f32) (w : FVec Ideal S64x64 .f32) (r : Fin 100000) (q : Fin 64) :
    prod (F := Ideal) x w (ix2 r q) = ∑ k : Fin 64, x (ix2 r k) * w (ix2 k q) :=
  Cert.Lib.Matmul.dotGeneral_apply (A := 100000) (K := 64) (C := 64) none .single x w r q

/-- Slice `J` of the stack of four weight matrices, its leading unit axis dropped, at `(k, n)`: the stack at `(J, k, n)`. -/
theorem wtSlice_apply (J : Fin 4) (W : FVec Ideal S4x64x64 .f32) (hs : S4x64x64.Slices ![J.val, 0, 0] S1x64x64)
    (k n : Fin 64) :
    shapeCast S64x64 (extractStridedSlice S1x64x64 ![J.val, 0, 0] W hs) shapeCasts_S1x64x64_S64x64 (ix2 k n)
      = W (ix3 J k n) := by
  refine (shapeCast_1ab_ab_apply _ _ k n).trans ?_
  refine extractStridedSlice_apply _ _ _ _ _ fun a => ?_
  match a with
  | ⟨0, _⟩ => exact (Nat.add_zero _).symm
  | ⟨1, _⟩ => exact (Nat.zero_add _).symm
  | ⟨2, _⟩ => exact (Nat.zero_add _).symm

theorem wt0_apply (W : FVec Ideal S4x64x64 .f32) (k n : Fin 64) : wt0 (F := Ideal) W (ix2 k n) = W (ix3 0 k n) :=
  wtSlice_apply 0 W _ k n
theorem wt1_apply (W : FVec Ideal S4x64x64 .f32) (k n : Fin 64) : wt1 (F := Ideal) W (ix2 k n) = W (ix3 1 k n) :=
  wtSlice_apply 1 W _ k n
theorem wt2_apply (W : FVec Ideal S4x64x64 .f32) (k n : Fin 64) : wt2 (F := Ideal) W (ix2 k n) = W (ix3 2 k n) :=
  wtSlice_apply 2 W _ k n
theorem wt3_apply (W : FVec Ideal S4x64x64 .f32) (k n : Fin 64) : wt3 (F := Ideal) W (ix2 k n) = W (ix3 3 k n) :=
  wtSlice_apply 3 W _ k n

/-- The bias, made a single row and spread down the 100000 rows, at `(r, q)`: the bias at `q`. -/
theorem bias_apply (b : FVec Ideal S64 .f32) (r : Fin 100000) (q : Fin 64) :
    broadcastInDim S100000x64 ![0, 1] bcast_S1x64_S100000x64_0_1 (broadcastInDim S1x64 ![1] bcast_S64_S1x64_1 b) (ix2 r q)
      = b (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- A scalar constant spread over the whole array reads the constant's value everywhere. -/
theorem splat_apply (w : BitVec 32) (i : S100000x64.Idx) :
    broadcastInDim S100000x64 ![] bcast_S_S100000x64 (constant (F := Ideal) S_ .f32 w) i = Ideal.ofBits .f32 w := rfl

/-- What a layer adds up before the rectifier, at entry `(r, q)`. -/
theorem preAct_apply (x h1 h2 h3 : FVec Ideal S100000x64 .f32) (W : FVec Ideal S4x64x64 .f32) (b : FVec Ideal S64 .f32)
    (r : Fin 100000) (q : Fin 64) :
    preAct (F := Ideal) x h1 h2 h3 W b (ix2 r q)
      = (((((∑ k : Fin 64, x (ix2 r k) * W (ix3 0 k q)) + ∑ k : Fin 64, h1 (ix2 r k) * W (ix3 1 k q))
          + ∑ k : Fin 64, h2 (ix2 r k) * W (ix3 2 k q)) + ∑ k : Fin 64, h3 (ix2 r k) * W (ix3 3 k q)) + b (ix1 q))
        + x (ix2 r q) := by
  show ((((prod x (wt0 W) (ix2 r q) + prod h1 (wt1 W) (ix2 r q)) + prod h2 (wt2 W) (ix2 r q)) + prod h3 (wt3 W) (ix2 r q))
      + broadcastInDim S100000x64 ![0, 1] bcast_S1x64_S100000x64_0_1 (broadcastInDim S1x64 ![1] bcast_S64_S1x64_1 b) (ix2 r q))
      + x (ix2 r q) = _
  rw [prod_apply, prod_apply, prod_apply, prod_apply, bias_apply]
  simp only [wt0_apply, wt1_apply, wt2_apply, wt3_apply]

/-- The reference's dense stage at an entry. -/
theorem leaky_preAct_apply (x h1 h2 h3 : FVec Ideal S100000x64 .f32) (W : FVec Ideal S4x64x64 .f32) (b : FVec Ideal S64 .f32)
    (r : Fin 100000) (q : Fin 64) :
    leaky (F := Ideal) (preAct x h1 h2 h3 W b) (ix2 r q)
      = rowCombine (fun k => x (ix2 r k)) (fun k => h1 (ix2 r k)) (fun k => h2 (ix2 r k)) (fun k => h3 (ix2 r k))
          (fun j k n => W (ix3 j k n)) (fun n => b (ix1 n)) q := by
  show lrelu (preAct (F := Ideal) x h1 h2 h3 W b (ix2 r q)) = _
  rw [preAct_apply]
  rfl

/-- One layer of the reference IS the layer function over its own adjacency operator. -/
theorem layerTerm_eq (e : IVec S2x1000000 32) (ew : FVec Ideal S1000000 .f32) (x : FVec Ideal S100000x64 .f32)
    (W : FVec Ideal S4x64x64 .f32) (b : FVec Ideal S64 .f32) :
    layerTerm (F := Ideal) e ew x W b = layerFn (hop (F := Ideal) e ew) x W b :=
  eq_layerFn _ _ _ _ _ fun r q => leaky_preAct_apply _ _ _ _ _ _ r q

end Cert.ReferenceIdeal.LayerValue

end
-- ==== Proof.Bridge.lean ====
/-
  The two programs' adjacency operators are one function. Each printed program names its own copies of the shapes,
  of the gather and scatter dimension records and of their side conditions; the operators built from them apply the
  same operations to the same arguments, so they are equal by unfolding those names.
-/
import proofs.«423142_j35880156791097_2_alg».proof.Proof.KVal
import proofs.«423142_j35880156791097_2_alg».proof.Proof.RVal

noncomputable section

namespace Cert.TagConv

open Idealize.ShloMosaic

variable {F : FTy → Type} [FloatOps F] [Cert.KernelIdeal.Facts] [Cert.ReferenceIdeal.Facts]

/-- The kernel program's and the reference's aggregation of the node rows over the edges are the same function. -/
theorem hop_eq (e : IVec ⟨2, ![2, 1000000]⟩ 32) (ew : FVec F ⟨1, ![1000000]⟩ .f32) (h : FVec F ⟨2, ![100000, 64]⟩ .f32) :
    Cert.KernelIdeal.HostValue.hop (F := F) e ew h = Cert.ReferenceIdeal.HostValue.hop (F := F) e ew h := rfl

/-- The same, as an equation between the two operators. -/
theorem hop_fn_eq (e : IVec ⟨2, ![2, 1000000]⟩ 32) (ew : FVec F ⟨1, ![1000000]⟩ .f32) :
    Cert.ReferenceIdeal.HostValue.hop (F := F) e ew = Cert.KernelIdeal.HostValue.hop (F := F) e ew := rfl

end Cert.TagConv

end
-- ==== Proof.lean ====
/-
  Two layers of a graph network — per layer three applications of a weighted adjacency operator on the host, then
  `leaky (x·W0 + h1·W1 + h2·W2 + h3·W3 + b + x)` row by row — computed by a Pallas kernel over blocks of rows appended
  with zeros, against the same network computed with host matrix products.

  Both programs end with their result at ONE function of the launch arrays, `layerFn hop (layerFn hop y W1 b1) W2 b2`
  (Proof/Spec.lean). The kernel's side: its run with the result named (Proof/KRun.lean), the result read back through
  the host operations to the two regions' output arrays (Proof/KThread.lean), each array as the layer's row function
  of what its region was entered with (Proof/KArr.lean over Proof/KBlock.lean), and the appended rows cut off again
  (Proof/KOut.lean). The reference's side: its run (Proof/RRun.lean over the operation list Proof/ROps.lean), the fold
  read at the result (Proof/RThread.lean) and each layer read at an entry (Proof/RLayer.lean). The two adjacency
  operators are one function (Proof/Bridge.lean). The sums are grouped alike on both sides, a rounding to bf16 is the
  identity over the extended reals, and a matrix product into zeros is the host's product: no law that needs finite
  inputs is used, so the precondition is never opened. The idealization rewrote nothing, so `preserves` is trivial.
-/
import proofs.«423142_j35880156791097_2_alg».proof.Defs
import proofs.«423142_j35880156791097_2_alg».proof.Proof.Gen.Kernel
import proofs.«423142_j35880156791097_2_alg».proof.Proof.Gen.Kernel.Frame
import proofs.«423142_j35880156791097_2_alg».proof.Proof.Gen.KernelIdeal
import proofs.«423142_j35880156791097_2_alg».proof.Proof.Gen.KernelIdeal.Frame
import proofs.«423142_j35880156791097_2_alg».proof.Proof.Gen.ReferenceIdeal
import proofs.«423142_j35880156791097_2_alg».proof.Proof.Gen.Pre_finite_inputs
import proofs.«423142_j35880156791097_2_alg».proof.Proof.KRun
import proofs.«423142_j35880156791097_2_alg».proof.Proof.KOut
import proofs.«423142_j35880156791097_2_alg».proof.Proof.RRun
import proofs.«423142_j35880156791097_2_alg».proof.Proof.RThread
import proofs.«423142_j35880156791097_2_alg».proof.Proof.RLayer
import proofs.«423142_j35880156791097_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo Cert.TagConv

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and writes none of its arguments. -/
theorem frame_referenceIdeal : Cert.frame_ReferenceIdeal := fun m ρ _ =>
  (θ_run Cert.ReferenceIdeal.defs _ _).mono
    (fun r h c =>
      ⟨(h c Cert.ReferenceIdeal.main_arg0).trans (Cert.ReferenceIdeal.Thread.after_arg0 _),
       (h c Cert.ReferenceIdeal.main_arg1).trans (Cert.ReferenceIdeal.Thread.after_arg1 _),
       (h c Cert.ReferenceIdeal.main_arg2).trans (Cert.ReferenceIdeal.Thread.after_arg2 _),
       (h c Cert.ReferenceIdeal.main_arg3).trans (Cert.ReferenceIdeal.Thread.after_arg3 _),
       (h c Cert.ReferenceIdeal.main_arg4).trans (Cert.ReferenceIdeal.Thread.after_arg4 _),
       (h c Cert.ReferenceIdeal.main_arg5).trans (Cert.ReferenceIdeal.Thread.after_arg5 _),
       (h c Cert.ReferenceIdeal.main_arg6).trans (Cert.ReferenceIdeal.Thread.after_arg6 _)⟩)
    (Cert.ReferenceIdeal.Run.run_after (F := Ideal) m ρ)

/-- The reference's two layers are the layer function twice, over the kernel program's adjacency operator. -/
theorem ref_out_eq (y : Rows.Idx → EReal) (e : IVec ⟨2, ![2, 1000000]⟩ 32) (ew : (⟨1, ![1000000]⟩ : Shape).Idx → EReal)
    (W1 : Wts.Idx → EReal) (b1 : Bias.Idx → EReal) (W2 : Wts.Idx → EReal) (b2 : Bias.Idx → EReal) :
    Cert.ReferenceIdeal.HostValue.out (F := Ideal) y e ew W1 b1 W2 b2
      = layerFn (Cert.KernelIdeal.HostValue.hop (F := Ideal) e ew)
          (layerFn (Cert.KernelIdeal.HostValue.hop (F := Ideal) e ew) y W1 b1) W2 b2 := by
  have hh : Cert.ReferenceIdeal.HostValue.hop (F := Ideal) e ew = Cert.KernelIdeal.HostValue.hop (F := Ideal) e ew :=
    hop_fn_eq (F := Ideal) e ew
  unfold Cert.ReferenceIdeal.HostValue.out
  rw [Cert.ReferenceIdeal.LayerValue.layerTerm_eq, Cert.ReferenceIdeal.LayerValue.layerTerm_eq, hh]

/-- From memories that agree on the arguments both programs end with the same result, the two-layer function of the
    launch arrays, and their arguments unchanged. -/
theorem algebraic : Cert.algebraic_KernelIdeal_ReferenceIdeal := by
  intro m ρ m' ρ' _ hagree
  refine ⟨fun c =>
    layerFn (Cert.KernelIdeal.HostValue.hop (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (layerFn (Cert.KernelIdeal.HostValue.hop (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.OutValue.out_eq m ρ c), (h c).2⟩)
      (Cert.KernelIdeal.GenOut.run_out (F := Ideal) m ρ)
  · refine (θ_run Cert.ReferenceIdeal.defs _ _).mono (fun r h c => ⟨?_,
        (h c Cert.ReferenceIdeal.main_arg0).trans (Cert.ReferenceIdeal.Thread.after_arg0 _),
        (h c Cert.ReferenceIdeal.main_arg1).trans (Cert.ReferenceIdeal.Thread.after_arg1 _),
        (h c Cert.ReferenceIdeal.main_arg2).trans (Cert.ReferenceIdeal.Thread.after_arg2 _),
        (h c Cert.ReferenceIdeal.main_arg3).trans (Cert.ReferenceIdeal.Thread.after_arg3 _),
        (h c Cert.ReferenceIdeal.main_arg4).trans (Cert.ReferenceIdeal.Thread.after_arg4 _),
        (h c Cert.ReferenceIdeal.main_arg5).trans (Cert.ReferenceIdeal.Thread.after_arg5 _),
        (h c Cert.ReferenceIdeal.main_arg6).trans (Cert.ReferenceIdeal.Thread.after_arg6 _)⟩)
      (Cert.ReferenceIdeal.Run.run_after (F := Ideal) m' ρ')
    refine (h c Cert.ReferenceIdeal.main_v121).trans ((Cert.ReferenceIdeal.Thread.after_out _).trans ?_)
    obtain ⟨a0, a1, a2, a3, a4, a5, a6⟩ := hagree c
    show Cert.ReferenceIdeal.HostValue.out (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = _
    rw [a0, a1, a2, a3, a4, a5, a6]
    exact ref_out_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
